-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) (main_arg2 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  main_v13
-- ==== Kernel.lean ====
abbrev S16777216 : Shape := ⟨1, ![16777216]⟩
abbrev S131072x128 : Shape := ⟨2, ![131072, 128]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S1x10 : Shape := ⟨2, ![1, 10]⟩
abbrev S10 : Shape := ⟨1, ![10]⟩
abbrev S_ : Shape := ⟨0, ![]⟩
abbrev S2 : Shape := ⟨1, ![2]⟩

abbrev nBuf : Space → Nat
  | .hbm => 27
  | .vmem => 15
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S131072x128, .f32⟩
  | .hbm, ⟨4, _⟩ => ⟨S131072x128, .f32⟩
  | .hbm, ⟨5, _⟩ => ⟨S131072x128, .f32⟩
  | .hbm, ⟨6, _⟩ => ⟨S1x128, .f32⟩
  | .hbm, ⟨7, _⟩ => ⟨S1x10, .f32⟩
  | .hbm, ⟨8, _⟩ => ⟨S10, .f32⟩
  | .hbm, ⟨9, _⟩ => ⟨S_, .f32⟩
  | .hbm, ⟨10, _⟩ => ⟨S10, .f32⟩
  | .hbm, ⟨11, _⟩ => ⟨S10, .f32⟩
  | .hbm, ⟨12, _⟩ => ⟨S_, .f32⟩
  | .hbm, ⟨13, _⟩ => ⟨S10, .f32⟩
  | .hbm, ⟨14, _⟩ => ⟨S10, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S1x1, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S1x128, .f32⟩
  | .local _ .vmem, ⟨14, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S16777216_S131072x128 : S16777216.ShapeCasts S131072x128
  inb_S1x128_S1x128_0_0 : ∀ a, (![0, 0] : Fin 2 → Nat) a + S1x128.size a ≤ S1x128.size a
  h_S1x128 : 0 < S1x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S1x128_d1_w32 : S1x128.Iotas .tc 32 [1]
  natLt_1_32 : 1 < 32
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x128_S1x128 : S1x128.ShapeCasts S1x128
  shapeCasts_S1x1_S1x1 : S1x1.ShapeCasts S1x1
  broadcasts_S1x1_S1x128 : S1x1.Broadcasts S1x128
  slices_S1x128_S1x10_0_0 : S1x128.Slices ![0, 0] S1x10
  shapeCasts_S1x10_S10 : S1x10.ShapeCasts S10
  bcast_S_S10 : S_.BroadcastsInDim S10 (![] : Fin 0 → Fin S10.rank)
  bcast_S_S1x128 : S_.BroadcastsInDim S1x128 (![] : Fin 0 → Fin S1x128.rank)
  bcast_S_S1 : S_.BroadcastsInDim S1 (![] : Fin 0 → Fin S1.rank)
  concatenates_S1_S1_S2_d0 : Shape.Concatenates [S1, S1] S2 0
  inb_S1x1_S1x1_0_0 : ∀ a, (![0, 0] : Fin 2 → Nat) a + S1x1.size a ≤ S1x1.size a
  h_S1x1 : 0 < S1x1.numel
  slices_S1x128_o0_0_S1x1 : S1x128.Slices ![0, 0] S1x1
  inpos_S1x1_p0_0 : ∀ a, (![0, 0] : Fin 2 → Nat) a < S1x1.size a
  slices_S1x128_o0_1_S1x1 : S1x128.Slices ![0, 1] S1x1
  slices_S1x128_o0_2_S1x1 : S1x128.Slices ![0, 2] S1x1
  slices_S1x128_o0_3_S1x1 : S1x128.Slices ![0, 3] S1x1
  slices_S1x128_o0_4_S1x1 : S1x128.Slices ![0, 4] S1x1
  slices_S1x128_o0_5_S1x1 : S1x128.Slices ![0, 5] S1x1
  slices_S1x128_o0_6_S1x1 : S1x128.Slices ![0, 6] S1x1
  slices_S1x128_o0_7_S1x1 : S1x128.Slices ![0, 7] S1x1
  slices_S1x128_o0_8_S1x1 : S1x128.Slices ![0, 8] S1x1
  slices_S1x128_o0_9_S1x1 : S1x128.Slices ![0, 9] S1x1
  shapeCasts_S1x1_S_ : S1x1.ShapeCasts S_
  scatter_S1x128_S2_S10_0_0_01_0_wf : ScatterDims.WF S1x128 S2 S10 [0] [0] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S131072x128.size a
  hwx1_0 : ∀ i : grid1.Coords, EltTy.bits .f32 = 32 ∨ (Rect.block (s := S131072x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S131072x128.size a
  hwx1_1 : ∀ i : grid1.Coords, EltTy.bits .f32 = 32 ∨ (Rect.block (s := S131072x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S131072x128.size a
  hwx1_2 : ∀ i : grid1.Coords, EltTy.bits .f32 = 32 ∨ (Rect.block (s := S131072x128) S4096x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def scatter_S1x128_S2_S10_0_0_01_0 : ScatterDims S1x128 S2 S10 where
  updateWindowDims := [0]
  insertedWindowDims := [0]
  scatterDimsToOperandDims := [0, 1]
  indexVectorDim := 0
  wf := scatter_S1x128_S2_S10_0_0_01_0_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16777216 : Shape := ⟨1, ![16777216]⟩
abbrev S_ : Shape := ⟨0, ![]⟩
abbrev S10 : Shape := ⟨1, ![10]⟩
abbrev S16777216x1 : Shape := ⟨2, ![16777216, 1]⟩

abbrev nBuf : Space → Nat
  | .hbm => 70
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S16777216, .f32⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .f32⟩
  | .hbm, ⟨9, _⟩ => ⟨S_, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S16777216, .f32⟩
  | .hbm, ⟨14, _⟩ => ⟨S16777216, .f32⟩
  | .hbm, ⟨15, _⟩ => ⟨S_, .f32⟩
  | .hbm, ⟨16, _⟩ => ⟨S16777216, .f32⟩
  | .hbm, ⟨17, _⟩ => ⟨S16777216, .f32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S16777216, .f32⟩
  | .hbm, ⟨25, _⟩ => ⟨S_, .f32⟩
  | .hbm, ⟨26, _⟩ => ⟨S16777216, .f32⟩
  | .hbm, ⟨27, _⟩ => ⟨S16777216, .f32⟩
  | .hbm, ⟨28, _⟩ => ⟨S_, .f32⟩
  | .hbm, ⟨29, _⟩ => ⟨S16777216, .f32⟩
  | .hbm, ⟨30, _⟩ => ⟨S16777216, .f32⟩
  | .hbm, ⟨31, _⟩ => ⟨S_, .f32⟩
  | .hbm, ⟨32, _⟩ => ⟨S16777216, .f32⟩
  | .hbm, ⟨33, _⟩ => ⟨S16777216, .f32⟩
  | .hbm, ⟨34, _⟩ => ⟨S16777216, .f32⟩
  | .hbm, ⟨35, _⟩ => ⟨S16777216, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S16777216, .i32⟩
  | .hbm, ⟨40, _⟩ => ⟨S16777216, .i32⟩
  | .hbm, ⟨41, _⟩ => ⟨S_, .i32⟩
  | .hbm, ⟨42, _⟩ => ⟨S16777216, .i32⟩
  | .hbm, ⟨43, _⟩ => ⟨S16777216, .i32⟩
  | .hbm, ⟨44, _⟩ => ⟨S_, .f32⟩
  | .hbm, ⟨45, _⟩ => ⟨S16777216, .f32⟩
  | .hbm, ⟨46, _⟩ => ⟨S_, .f32⟩
  | .hbm, ⟨47, _⟩ => ⟨S10, .f32⟩
  | .hbm, ⟨48, _⟩ => ⟨S16777216x1, .i32⟩
  | .hbm, ⟨49, _⟩ => ⟨S10, .f32⟩
  | .hbm, ⟨50, _⟩ => ⟨S_, .f32⟩
  | .hbm, ⟨51, _⟩ => ⟨S10, .f32⟩
  | .hbm, ⟨52, _⟩ => ⟨S10, .f32⟩
  | .hbm, ⟨53, _⟩ => ⟨S_, .f32⟩
  | .hbm, ⟨54, _⟩ => ⟨S10, .f32⟩
  | .hbm, ⟨55, _⟩ => ⟨S10, .f32⟩
  | .hbm, ⟨56, _⟩ => ⟨S_, .i32⟩
  | .hbm, ⟨57, _⟩ => ⟨S16777216, .i32⟩
  | .hbm, ⟨58, _⟩ => ⟨S16777216, .i1⟩
  | .hbm, ⟨59, _⟩ => ⟨S_, .i32⟩
  | .hbm, ⟨60, _⟩ => ⟨S16777216, .i32⟩
  | .hbm, ⟨61, _⟩ => ⟨S16777216, .i32⟩
  | .hbm, ⟨62, _⟩ => ⟨S16777216, .i32⟩
  | .hbm, ⟨63, _⟩ => ⟨S16777216x1, .i32⟩
  | .hbm, ⟨64, _⟩ => ⟨S16777216, .f32⟩
  | .hbm, ⟨65, _⟩ => ⟨S16777216, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_c_7 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_v33 : Ref sig .tc := ⟨.hbm, 55, rfl⟩
abbrev main_c_12 : Ref sig .tc := ⟨.hbm, 56, rfl⟩
abbrev main_v34 : Ref sig .tc := ⟨.hbm, 57, rfl⟩
abbrev main_v35 : Ref sig .tc := ⟨.hbm, 58, rfl⟩
abbrev main_c_13 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_14 : Ref sig .tc := ⟨.hbm, 66, rfl⟩
abbrev main_v42 : Ref sig .tc := ⟨.hbm, 67, rfl⟩
abbrev main_cst_15 : Ref sig .tc := ⟨.hbm, 68, rfl⟩
abbrev main_v43 : Ref sig .tc := ⟨.hbm, 69, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S_S10 : S_.BroadcastsInDim S10 (![] : Fin 0 → Fin S10.rank)
  bcast_S16777216_S16777216x1_0 : S16777216.BroadcastsInDim S16777216x1 (![0] : Fin 1 → Fin S16777216x1.rank)
  reducesTo_S16777216_S_d0 : S16777216.ReducesTo [0] S_
  h_S_ : 0 < S_.numel
  scatter_S10_S16777216x1_S16777216_n_0_0_1_wf : ScatterDims.WF S10 S16777216x1 S16777216 [] [0] [0] 1
  gather_S10_S16777216x1_S16777216_n_0_n_n_0_1_1_wf : GatherDims.WF S10 S16777216x1 S16777216 [] [0] [] [0] [] 1 ![1]

variable [Facts₀]

def scatter_S10_S16777216x1_S16777216_n_0_0_1 : ScatterDims S10 S16777216x1 S16777216 where
  updateWindowDims := []
  insertedWindowDims := [0]
  scatterDimsToOperandDims := [0]
  indexVectorDim := 1
  wf := scatter_S10_S16777216x1_S16777216_n_0_0_1_wf
def gather_S10_S16777216x1_S16777216_n_0_n_n_0_1_1 : GatherDims S10 S16777216x1 S16777216 where
  offsetDims := []
  collapsedSliceDims := [0]
  operandBatchingDims := []
  startIndicesBatchingDims := []
  startIndexMap := [0]
  indexVectorDim := 1
  sliceSizes := ![1]
  wf := gather_S10_S16777216x1_S16777216_n_0_n_n_0_1_1_wf

class Facts : Prop extends Facts₀ where

variable [Facts]
-- ==== Proof.HistSpec.lean ====
/-
  The function both programs compute, on three flat arrays `A`, `B`, `T` of 2²⁴ extended reals.

  Per element: the difference `d = a − b`, the ranking loss `max 0 (−t · d)`, and a gradient-norm proxy
  `g = σ(−d · (2t − 1))` with `σ x = 1 / (1 + e⁻ˣ)`. The proxy is binned into ten uniform bins:
  `⌊10 g⌋` converted to a 32-bit integer word and clamped into `[0, 9]`. Bin `j`'s population `cnt j` is the number of
  elements whose word reads `j`; its weight is `(max (cnt j) 1) ^ (−3/4)`. The result is the mean over all elements of
  loss times the weight of the element's bin: the sum divided by 2²⁴.

  Float literals stay as their words (`Ideal.ofBits`): the same word appears on both sides and is never evaluated,
  except the zero and the one whose values the sums need.

  Also here: the two re-indexings of a sum that relate a flat array of 2²⁴ entries to its row-major reading as
  131072 rows of 128 lanes, and the rows to 32 consecutive blocks of 4096 rows.
-/
import Idealize.ShloMosaic.PureOps.Ideal
import Idealize.ShloMosaic.PureOps.Ideal.Laws
import Idealize.ShloMosaic.Lib.IdealHost
import Idealize.ShloMosaic.Lib.ValueIdx
import Idealize.ShloMosaic.Lib.ValueIdxRank1

noncomputable section

open scoped BigOperators

namespace Cert.HistSpec

open Idealize.ShloMosaic Idealize.ShloMosaic.ValueIdx

/-- The shape of a flat argument array: 2²⁴ entries. -/
abbrev Flat : Shape := ⟨1, ![16777216]⟩

/-- The literals, as the words both programs print: 2, 1, 10, −3/4 and 2²⁴. -/
abbrev two : EReal := Ideal.ofBits .f32 0x40000000#32
abbrev one : EReal := Ideal.ofBits .f32 0x3F800000#32
abbrev ten : EReal := Ideal.ofBits .f32 0x41200000#32
abbrev negThreeQuarters : EReal := Ideal.ofBits .f32 0xBF400000#32
abbrev count : EReal := Ideal.ofBits .f32 0x4B800000#32

/-- The gradient-norm proxy of one element: the logistic function of `−(a − b) · (2t − 1)`. -/
def proxy (a b t : EReal) : EReal := Ideal.logistic (-(a - b) * (two * t - one))

/-- The element's bin as a 32-bit word: `⌊10 · proxy⌋`, converted toward zero with saturation, clamped below by 0 and
    above by 9 (signed). -/
def binOf (a b t : EReal) : BitVec 32 :=
  IntOp.minsi 9#32 (IntOp.maxsi 0#32 (Ideal.fptosi 32 (Ideal.liftRound Int.floor (proxy a b t * ten))))

/-- The element's ranking loss: `max 0 (−t · (a − b))`. -/
def lossOf (a b t : EReal) : EReal := max 0 (-t * (a - b))

/-- Clamping any 32-bit word below by 0 and above by 9 (both signed) leaves a word that reads between 0 and 9:
    each of the two comparisons either keeps the bound itself or keeps a word already on the right side of it. -/
private theorem clamp_range (x : BitVec 32) :
    0 ≤ (IntOp.minsi 9#32 (IntOp.maxsi 0#32 x)).toInt ∧ (IntOp.minsi 9#32 (IntOp.maxsi 0#32 x)).toInt ≤ 9 := by
  have h9 : (9#32 : BitVec 32).toInt = 9 := by decide
  have h0 : (0#32 : BitVec 32).toInt = 0 := by decide
  unfold IntOp.minsi IntOp.maxsi
  simp only [BitVec.slt, decide_eq_true_eq, h0, h9]
  by_cases hx : x.toInt < 0
  · -- a word that reads negative is raised to 0, which the upper bound leaves alone
    have h90 : ¬ (9 : ℤ) < 0 := by omega
    simp only [if_pos hx, h0, if_neg h90]
    omega
  · by_cases hy : 9 < x.toInt
    · -- a word that reads above 9 is lowered to 9
      simp only [if_neg hx, if_pos hy, h9]
      omega
    · -- a word already in range is kept
      simp only [if_neg hx, if_neg hy]
      omega

/-- The clamp leaves a word that reads, signed, between 0 and 9. -/
theorem binOf_nonneg (a b t : EReal) : 0 ≤ (binOf a b t).toInt := (clamp_range _).1

theorem binOf_le (a b t : EReal) : (binOf a b t).toInt ≤ 9 := (clamp_range _).2

/-- The element's bin as one of the ten positions (the word read signed; the `min` is idle by `binOf_le`). -/
def slot (a b t : EReal) : Fin 10 := ⟨min (binOf a b t).toInt.toNat 9, by omega⟩

theorem slot_val (a b t : EReal) : ((slot a b t).val : ℤ) = (binOf a b t).toInt := by
  have hn := binOf_nonneg a b t
  have hl := binOf_le a b t
  show ((min (binOf a b t).toInt.toNat 9 : ℕ) : ℤ) = (binOf a b t).toInt
  omega

/-- Bin `j`'s population: how many elements' words read `j`. -/
def cnt (A B T : Flat.Idx → EReal) (j : Fin 10) : EReal :=
  ∑ i : Flat.Idx, if (binOf (A i) (B i) (T i)).toInt = (j.val : ℤ) then (1 : EReal) else 0

/-- Bin `j`'s weight: `(max (cnt j) 1) ^ (−3/4)`. -/
def wt (A B T : Flat.Idx → EReal) (j : Fin 10) : EReal :=
  Ideal.pow (max (cnt A B T j) one) negThreeQuarters

/-- The weighted loss summed over all elements. -/
def total (A B T : Flat.Idx → EReal) : EReal :=
  ∑ i : Flat.Idx, lossOf (A i) (B i) (T i) * wt A B T (slot (A i) (B i) (T i))

/-- The mean: the sum divided by 2²⁴. -/
def result (A B T : Flat.Idx → EReal) : EReal := Ideal.div (total A B T) count

/-! ## Sums re-indexed -/

/-- Entry `128 p + q` of a flat array: row `p`, lane `q` of its row-major reading as 131072 × 128. -/
abbrev flatIx (p : Fin 131072) (q : Fin 128) : Flat.Idx := ix1 ⟨p.val * 128 + q.val, by omega⟩

/-- Row `4096 t + r`: row `r` of block `t` when the 131072 rows are cut into 32 blocks of 4096. -/
abbrev rowIx (t : Fin 32) (r : Fin 4096) : Fin 131072 := ⟨t.val * 4096 + r.val, by omega⟩

/-- A sum over the flat array is the sum over rows of the sums over lanes. -/
theorem sum_flat (f : Flat.Idx → EReal) :
    ∑ i : Flat.Idx, f i = ∑ p : Fin 131072, ∑ q : Fin 128, f (flatIx p q) := by
  rw [← Fintype.sum_prod_type (f := fun pq : Fin 131072 × Fin 128 => f (flatIx pq.1 pq.2))]
  symm
  refine Fintype.sum_equiv
    ((finProdFinEquiv.trans (finCongr (by norm_num : 131072 * 128 = 16777216))).trans idxEquiv1.symm) _ _ ?_
  rintro ⟨p, q⟩
  refine congrArg f (congrArg ix1 (Fin.ext ?_))
  show p.val * 128 + q.val = q.val + 128 * p.val
  omega

/-- A sum over the rows is the sum over blocks of the sums over a block's rows. -/
theorem sum_rows (f : Fin 131072 → EReal) :
    ∑ p : Fin 131072, f p = ∑ t : Fin 32, ∑ r : Fin 4096, f (rowIx t r) := by
  rw [← Fintype.sum_prod_type (f := fun tr : Fin 32 × Fin 4096 => f (rowIx tr.1 tr.2))]
  symm
  refine Fintype.sum_equiv
    (finProdFinEquiv.trans (finCongr (by norm_num : 32 * 4096 = 131072))) _ _ ?_
  rintro ⟨t, r⟩
  refine congrArg f (Fin.ext ?_)
  show t.val * 4096 + r.val = r.val + 4096 * t.val
  omega

/-! ## The same quantities over the row-major reading

The kernel sees each argument as 131072 rows of 128 lanes. Its first pass leaves one row of 128 lanes holding, in lane
`l`, the number of elements whose word reads `l` (zero from lane 10 on, since every word reads at most 9); between
the passes that row becomes a row of weights (lanes 0 … 9 the ten weights, zero elsewhere); its second pass leaves one
cell holding the weighted loss summed over all rows and lanes. -/

/-- 131072 rows of 128 lanes; one row of 128 lanes; one cell. -/
abbrev Rows : Shape := ⟨2, ![131072, 128]⟩
abbrev Lanes : Shape := ⟨2, ![1, 128]⟩
abbrev Cell : Shape := ⟨2, ![1, 1]⟩

/-- A position among the ten bins as a lane of the 128. -/
abbrev laneOf (s : Fin 10) : Fin 128 := ⟨s.val, by omega⟩

/-- Lane `l` of the population row: how many entries' words read `l`. -/
def hist2 (X0 X1 X2 : Rows.Idx → EReal) : Lanes.Idx → EReal := fun j =>
  ∑ p : Fin 131072, ∑ q : Fin 128,
    if (binOf (X0 (ix2 p q)) (X1 (ix2 p q)) (X2 (ix2 p q))).toInt = ((j 1).val : ℤ) then (1 : EReal) else 0

/-- The weight row made from a population row: `(max h 1) ^ (−3/4)` in the first ten lanes, zero in the rest. -/
def wpad (H : Lanes.Idx → EReal) : Lanes.Idx → EReal := fun j =>
  if (j 1).val < 10 then Ideal.pow (max (H j) one) negThreeQuarters else 0

/-- The weighted loss summed over rows and lanes, each entry's weight read from the weight row at its bin's lane. -/
def tot2 (X0 X1 X2 : Rows.Idx → EReal) (Wp : Lanes.Idx → EReal) : Cell.Idx → EReal := fun _ =>
  ∑ p : Fin 131072, ∑ q : Fin 128,
    lossOf (X0 (ix2 p q)) (X1 (ix2 p q)) (X2 (ix2 p q))
      * Wp (ix2 (0 : Fin 1) (laneOf (slot (X0 (ix2 p q)) (X1 (ix2 p q)) (X2 (ix2 p q)))))

/-- THE TWO READINGS AGREE. If `X0`, `X1`, `X2` are the row-major readings of `A`, `B`, `T`, the second pass's cell
    over the weight row made from the first pass's population row, divided by 2²⁴, is the mean weighted loss. -/
theorem result_of_rows (A B T : Flat.Idx → EReal) (X0 X1 X2 : Rows.Idx → EReal)
    (h0 : ∀ p q, X0 (ix2 p q) = A (flatIx p q)) (h1 : ∀ p q, X1 (ix2 p q) = B (flatIx p q))
    (h2 : ∀ p q, X2 (ix2 p q) = T (flatIx p q)) :
    Ideal.div (tot2 X0 X1 X2 (wpad (hist2 X0 X1 X2)) (ix2 (0 : Fin 1) (0 : Fin 1))) count = result A B T := by
  -- the population row, read at a bin's lane, is that bin's population
  have hh : ∀ s : Fin 10, hist2 X0 X1 X2 (ix2 (0 : Fin 1) (laneOf s)) = cnt A B T s := by
    intro s
    unfold hist2 cnt
    rw [sum_flat]
    refine Finset.sum_congr rfl fun p _ => Finset.sum_congr rfl fun q _ => ?_
    rw [h0, h1, h2]
  -- so the weight row, read there, is that bin's weight
  have hw : ∀ s : Fin 10, wpad (hist2 X0 X1 X2) (ix2 (0 : Fin 1) (laneOf s)) = wt A B T s := by
    intro s
    unfold wpad wt
    have hlt : ((ix2 (0 : Fin 1) (laneOf s)) 1).val < 10 := s.isLt
    rw [if_pos hlt, hh]
  unfold result total tot2
  refine congrArg (Ideal.div · count) ?_
  rw [sum_flat]
  refine Finset.sum_congr rfl fun p _ => Finset.sum_congr rfl fun q _ => ?_
  rw [h0, h1, h2, hw]

end Cert.HistSpec

end
-- ==== Proof.LibGather.lean ====
/-
  Two gathers read at an index, and the words of a wrapped row number. What `x[idx]` lowers to when `idx` is a flat
  array of `E` row numbers reshaped to one column `[E, 1]`: a `stablehlo.gather` whose start index map names operand
  axis 0, whose index vector lies along axis 1 of the start indices and whose slice is one element of a flat operand
  `[N]` (result `[E]`) or one whole row of a matrix `[N, D]` (result `[E, D]`, the row along the one offset axis). Result
  element `e` (or `(e, k)`) is the operand at the row number `idx[e, 0]`, read as a signed integer and clamped into
  `[0, N − 1]` as StableHLO clamps every start index: a negative word reads row 0, a word past the end reads row
  `N − 1`. The column `k` passes through untouched. Then the words: the index wrap `x < 0 ? x + n : x` leaves a
  non-negative word alone, and a 32-bit word reads as the natural number `g < 2³¹` exactly when it is `g`'s word.
-/
import Idealize.ShloMosaic.PureOps.Ideal
import Idealize.ShloMosaic.PureOps.Contract
import Idealize.ShloMosaic.Lib.ValueIdx

noncomputable section

namespace Cert.LibGather

open Idealize.ShloMosaic Idealize.ShloMosaic.ValueIdx

/-! ## A flat operand: one element per row number -/

section Vec
variable {α : Type}

/-- The dimension numbers of an element gather: no offset axes, operand axis 0 collapsed and the one the single index
    component names, the index vector along axis 1 of the start indices, slices of one element. -/
abbrev vecGatherDims (N E : Nat)
    (wf : GatherDims.WF (⟨1, ![N]⟩ : Shape) (⟨2, ![E, 1]⟩ : Shape) (⟨1, ![E]⟩ : Shape) [] [0] [] [0] [] 1 ![1]) :
    GatherDims (⟨1, ![N]⟩ : Shape) (⟨2, ![E, 1]⟩ : Shape) (⟨1, ![E]⟩ : Shape) where
  offsetDims := []
  collapsedSliceDims := [0]
  operandBatchingDims := []
  startIndicesBatchingDims := []
  startIndexMap := [0]
  indexVectorDim := 1
  sliceSizes := ![1]
  wf := wf

/-- Result element `e` reads its start index at `[e, 0]`: its batch coordinate, and component 0 of the index vector. -/
private theorem vec_siIdx {N E : Nat}
    (wf : GatherDims.WF (⟨1, ![N]⟩ : Shape) (⟨2, ![E, 1]⟩ : Shape) (⟨1, ![E]⟩ : Shape) [] [0] [] [0] [] 1 ![1])
    (e : Fin E) (c : Fin (vecGatherDims N E wf).startIndexMap.length) :
    (vecGatherDims N E wf).siIdx (ix1 e) c = ix2 e (0 : Fin 1) := by
  have hc : c.val = 0 := Nat.lt_one_iff.mp c.isLt
  funext b; refine Fin.ext ?_
  match b with
  | ⟨0, _⟩ => rfl
  | ⟨1, _⟩ => exact hc

/-- On the operand's one axis the slice starts at row `e`'s index word, read signed and clamped into `[0, N − 1]`. -/
private theorem vec_start {N E w : Nat}
    (wf : GatherDims.WF (⟨1, ![N]⟩ : Shape) (⟨2, ![E, 1]⟩ : Shape) (⟨1, ![E]⟩ : Shape) [] [0] [] [0] [] 1 ![1])
    (idx : IVec (⟨2, ![E, 1]⟩ : Shape) w) (e : Fin E) :
    (vecGatherDims N E wf).start (ix1 e) idx 0 = min (idx (ix2 e (0 : Fin 1))).toInt.toNat (N - 1) := by
  unfold GatherDims.start
  rw [dif_pos (show (0 : Fin 1) ∈ (vecGatherDims N E wf).startIndexMap from List.mem_singleton.mpr rfl), vec_siIdx]
  rfl

/-- THE ELEMENT GATHER AT `e`: the operand at the row number `idx[e, 0]`, read signed and clamped into `[0, N − 1]`. -/
theorem vecGather_apply {N E w : Nat} (hN : 0 < N)
    (wf : GatherDims.WF (⟨1, ![N]⟩ : Shape) (⟨2, ![E, 1]⟩ : Shape) (⟨1, ![E]⟩ : Shape) [] [0] [] [0] [] 1 ![1])
    (x : (⟨1, ![N]⟩ : Shape).Idx → α) (idx : IVec (⟨2, ![E, 1]⟩ : Shape) w) (e : Fin E) :
    Host.gather (vecGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl)),
    vec_start]
  rfl

end Vec

/-! ## A matrix operand: one whole row per row number -/

section Row
variable {α : Type}

/-- The dimension numbers of a row gather: result axis 1 is the offset axis (operand axis 1, taken whole), operand axis 0
    is collapsed and the one the single index component names, the index vector lies along axis 1 of the start indices,
    slices of one row. -/
abbrev rowGatherDims (N D E : Nat)
    (wf : GatherDims.WF (⟨2, ![N, D]⟩ : Shape) (⟨2, ![E, 1]⟩ : Shape) (⟨2, ![E, D]⟩ : Shape) [1] [0] [] [0] [] 1 ![1, D]) :
    GatherDims (⟨2, ![N, D]⟩ : Shape) (⟨2, ![E, 1]⟩ : Shape) (⟨2, ![E, D]⟩ : Shape) where
  offsetDims := [1]
  collapsedSliceDims := [0]
  operandBatchingDims := []
  startIndicesBatchingDims := []
  startIndexMap := [0]
  indexVectorDim := 1
  sliceSizes := ![1, D]
  wf := wf

/-- Result element `(e, k)` reads its start index at `[e, 0]`: its one batch coordinate `e`, and component 0 of the index
    vector; the column `k` plays no part. -/
private theorem row_siIdx {N D E : Nat}
    (wf : GatherDims.WF (⟨2, ![N, D]⟩ : Shape) (⟨2, ![E, 1]⟩ : Shape) (⟨2, ![E, D]⟩ : Shape) [1] [0] [] [0] [] 1 ![1, D])
    (e : Fin E) (k : Fin D) (c : Fin (rowGatherDims N D E wf).startIndexMap.length) :
    (rowGatherDims N D E wf).siIdx (ix2 e k) c = ix2 e (0 : Fin 1) := by
  have hc : c.val = 0 := Nat.lt_one_iff.mp c.isLt
  funext b; refine Fin.ext ?_
  match b with
  | ⟨0, _⟩ => rfl
  | ⟨1, _⟩ => exact hc

/-- On operand axis 0 the slice starts at row `e`'s index word, read signed and clamped into `[0, N − 1]`. -/
private theorem row_start_zero {N D E w : Nat}
    (wf : GatherDims.WF (⟨2, ![N, D]⟩ : Shape) (⟨2, ![E, 1]⟩ : Shape) (⟨2, ![E, D]⟩ : Shape) [1] [0] [] [0] [] 1 ![1, D])
    (idx : IVec (⟨2, ![E, 1]⟩ : Shape) w) (e : Fin E) (k : Fin D) :
    (rowGatherDims N D E wf).start (ix2 e k) idx 0 = min (idx (ix2 e (0 : Fin 1))).toInt.toNat (N - 1) := by
  unfold GatherDims.start
  rw [dif_pos (show (0 : Fin 2) ∈ (rowGatherDims N D E wf).startIndexMap from List.mem_singleton.mpr rfl), row_siIdx]
  rfl

/-- Operand axis 1 is not named by the index vector: the slice starts at 0 there. -/
private theorem row_start_one {N D E w : Nat}
    (wf : GatherDims.WF (⟨2, ![N, D]⟩ : Shape) (⟨2, ![E, 1]⟩ : Shape) (⟨2, ![E, D]⟩ : Shape) [1] [0] [] [0] [] 1 ![1, D])
    (idx : IVec (⟨2, ![E, 1]⟩ : Shape) w) (j : (⟨2, ![E, D]⟩ : Shape).Idx) :
    (rowGatherDims N D E wf).start j idx 1 = 0 := by
  unfold GatherDims.start
  rw [dif_neg (show ¬ (1 : Fin 2) ∈ (rowGatherDims N D E wf).startIndexMap from
    (by decide : ¬ (1 : Fin 2) ∈ ([0] : List (Fin 2))))]

/-- Operand axis 1 is the one kept axis, read by the result's one offset axis: the offset coordinate there is the
    result's column. -/
private theorem row_off_one {N D E : Nat}
    (wf : GatherDims.WF (⟨2, ![N, D]⟩ : Shape) (⟨2, ![E, 1]⟩ : Shape) (⟨2, ![E, D]⟩ : Shape) [1] [0] [] [0] [] 1 ![1, D])
    (e : Fin E) (k : Fin D) :
    (rowGatherDims N D E wf).offCoord (ix2 e k) 1 = k.val := by
  unfold GatherDims.offCoord
  rw [dif_pos ((GatherDims.mem_sKept _ _).mpr
    ⟨(by decide : ¬ (1 : Fin 2) ∈ ([0] : List (Fin 2))), List.not_mem_nil⟩)]
  rfl

/-- THE ROW GATHER AT `(e, k)`: column `k` of the operand's row `idx[e, 0]`, the row number read signed and clamped into
    `[0, N − 1]`. -/
theorem rowGather_apply {N D E w : Nat} (hN : 0 < N)
    (wf : GatherDims.WF (⟨2, ![N, D]⟩ : Shape) (⟨2, ![E, 1]⟩ : Shape) (⟨2, ![E, D]⟩ : Shape) [1] [0] [] [0] [] 1 ![1, D])
    (x : (⟨2, ![N, D]⟩ : Shape).Idx → α) (idx : IVec (⟨2, ![E, 1]⟩ : Shape) w) (e : Fin E) (k : Fin D) :
    Host.gather (rowGatherDims N D E wf) x idx (ix2 e k)
      = x (ix2 ⟨min (idx (ix2 e (0 : Fin 1))).toInt.toNat (N - 1), by omega⟩ k) := by
  unfold Host.gather
  congr 1
  funext a
  refine Fin.ext ?_
  revert a
  refine Fin.forall_fin_two.2 ⟨?_, ?_⟩
  · show (rowGatherDims N D E wf).start (ix2 e k) idx 0 + (rowGatherDims N D E wf).batchCoord (ix2 e k) 0
        + (rowGatherDims N D E wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl)),
      row_start_zero]
    rfl
  · show (rowGatherDims N D E wf).start (ix2 e k) idx 1 + (rowGatherDims N D E wf).batchCoord (ix2 e k) 1
        + (rowGatherDims N D E wf).offCoord (ix2 e k) 1 = k.val
    rw [GatherDims.batchCoord_eq_zero _ _ _ List.not_mem_nil, row_start_one, row_off_one]
    omega

end Row

/-! ## Words: the index wrap on a non-negative word, and a word read as a natural number -/

section Words

/-- A signed "less than zero" test on a word that reads non-negative answers the bit `0`, so a select on it is its
    second operand. -/
theorem select_slt_zero_of_nonneg {α : Type} (x : BitVec 32) (hx : 0 ≤ x.toInt) (a b : α) :
    Scalar.select (IntOp.cmpi .slt x 0#32) a b = b := by
  have h : x.slt 0#32 = false := by
    simp only [BitVec.slt, BitVec.toInt_zero, decide_eq_false_iff_not, not_lt]
    exact hx
  show Scalar.select (BitVec.ofBool (x.slt 0#32)) a b = b
  rw [h]
  exact select_zero a b

/-- The index wrap `x < 0 ? x + 50000 : x` leaves a word that reads non-negative alone. -/
theorem wrap_nonneg (x : BitVec 32) (hx : 0 ≤ x.toInt) :
    Scalar.select (IntOp.cmpi .slt x 0#32) (IntOp.addi x 50000#32) x = x :=
  select_slt_zero_of_nonneg x hx _ _

/-- The same on vectors, read at an index: where `v`'s word reads non-negative, `select (v < z) (v + c) v` with `z` the
    zero vector is `v`'s word, whatever the addend `c`. -/
theorem wrap_apply_of_nonneg {s : Shape} (v : IVec s 32) (z c : IVec s 32) (hz : ∀ i, z i = 0#32) (i : s.Idx)
    (hx : 0 ≤ (v i).toInt) : select (cmpi .slt v z) (addi v c) v i = v i := by
  show Scalar.select (IntOp.cmpi .slt (v i) (z i)) (IntOp.addi (v i) (c i)) (v i) = v i
  rw [hz i]
  exact select_slt_zero_of_nonneg (v i) hx _ _

/-- A 32-bit word reads, signed, as the natural number `g < 2³¹` exactly when it is `g`'s word. -/
theorem toInt_eq_iff_eq_ofNat (x : BitVec 32) (g : Nat) (hg : g < 2 ^ 31) :
    x.toInt = (g : ℤ) ↔ x = BitVec.ofNat 32 g := by
  have hgi : (BitVec.ofNat 32 g).toInt = (g : ℤ) := by
    rw [BitVec.toInt_eq_toNat_cond, BitVec.toNat_ofNat]
    have hm : g % 2 ^ 32 = g := Nat.mod_eq_of_lt (by omega)
    rw [hm, if_pos (by omega)]
  constructor
  · intro h
    exact BitVec.eq_of_toInt_eq (h.trans hgi.symm)
  · rintro rfl
    exact hgi

end Words

end Cert.LibGather

end
-- ==== Proof.Region0Pieces.lean ====
/-
  One block of the first pass read as a value. On a block of 4096 rows by 128 lanes the histogram body computes each
  entry's bin word, and for each of the ten bins `b` in turn reads the output row back, adds the block's population of
  `b` (a sum over lanes, then over rows, of the 0/1 indicator "the word is `b`") into lane `b` and nothing into the
  other lanes, and stores the row. So after the body lane `l` holds what it held before plus the number of the block's
  entries whose word reads `l`: for `l` from 10 on nothing, since no bin is named `l`. At the first block the row is
  first reset to zero.
-/
import proofs.«122389_j51556787421840_1_alg».proof.Proof.HistSpec
import proofs.«122389_j51556787421840_1_alg».proof.Proof.Gen.KernelIdeal.Frame
import Idealize.ShloMosaic.Lib.Pipeline.Value
import Idealize.ShloMosaic.Lib.ValueLayout
import proofs.«122389_j51556787421840_1_alg».proof.Proof.LibGather
import Idealize.ShloMosaic.Lib.KernelVsHost
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.HistSpec

variable {F : FTy → Type} [FloatOps F]

/-- The zero offsets of a whole-row access, however they are spelt. -/
private theorem hz : (![0, 0] : Fin 2 → Nat) = fun _ => 0 := funext fun a => by fin_cases a <;> rfl

/-- A load of the whole shape, after a list of stores the last of which wrote the whole shape, reads that last store's
    payload: the earlier stores lie under it. -/
private theorem readCov_cons_unit_zero {Val : EltTy → Type} [∀ e, Nonempty (Val e)] {S : Shape} {e : EltTy} {sig : RefSig}
    {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- The lane number of each entry of a row. -/
private abbrev lanes : IVec S1x128 32 := iota .tc S1x128 32 [1] iota_S1x128_d1_w32

/-! ## The stored pieces read back, for any float values -/

/-- The body's ten steps on a starting row `acc`, as one term: for the bins 0 to 9 in turn, the row so far plus the
    block's population of the bin in the bin's lane; the block's bin words are `k0_pay3 x0 x1 x2`. -/
private def nest (x0 x1 x2 : Vec F S4096x128 .f32) (acc : Vec F S1x128 .f32) : FVec F S1x128 .f32 :=
  k0_pay1 lanes (k0_pay19 (k0_pay3 x0 x1 x2))
    (k0_pay18 (k0_pay3 x0 x1 x2) lanes
      (k0_pay17 (k0_pay3 x0 x1 x2) lanes 7#32
        (k0_pay16 (k0_pay3 x0 x1 x2) lanes
          (k0_pay15 (k0_pay3 x0 x1 x2) lanes
            (k0_pay14 (k0_pay3 x0 x1 x2) lanes
              (k0_pay13 (k0_pay3 x0 x1 x2) lanes
                (k0_pay12
                  (k0_pay9 (k0_pay8 (k0_pay3 x0 x1 x2) lanes (k0_pay7 lanes (k0_pay4 x0 x1 x2) (k0_pay5 acc) k0_pay6)))
                  (k0_pay10 lanes) (Scalar.ofBits .f32 0x00000000#32) (k0_pay11 (k0_pay3 x0 x1 x2)))))))))

/-- At a later block the stored pieces read back are the ten steps on the row found. -/
private theorem out_B_nest (c : Dev nD) (i : grid0.Coords) (a1 : Memref sig .tc .vmem S4096x128 .f32) (h1 : a1.IsWhole)
    (a2 : Memref sig .tc .vmem S4096x128 .f32) (h2 : a2.IsWhole) (a3 : Memref sig .tc .vmem S4096x128 .f32) (h3 : a3.IsWhole)
    (a4 : Memref sig .tc .vmem S1x128 .f32) (h4 : a4.IsWhole) (hc : ¬cond0_0 i)
    (x0 x1 x2 : Vec F S4096x128 .f32) (xo : Vec F S1x128 .f32) :
    out0_B_3 c i a1 h1 a2 h2 a3 h3 a4 h4 hc x0 x1 x2 xo = nest x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_cons_unit_zero (S := S1x128) hz]
  simp only [readCov_cons_unit_zero (S := S1x128) _ hz, View.readAt_eq_ld, h1.read_unread, h2.read_unread,
    h3.read_unread, h4.read_unread, View.ld_unit_zero (S := S4096x128) hz, View.ld_unit_zero (S := S1x128) hz]
  rfl

/-- At the first block the stored pieces read back are the ten steps on the zero row the reset stores. -/
private theorem out_A_nest (c : Dev nD) (i : grid0.Coords) (a1 : Memref sig .tc .vmem S4096x128 .f32) (h1 : a1.IsWhole)
    (a2 : Memref sig .tc .vmem S4096x128 .f32) (h2 : a2.IsWhole) (a3 : Memref sig .tc .vmem S4096x128 .f32) (h3 : a3.IsWhole)
    (a4 : Memref sig .tc .vmem S1x128 .f32) (h4 : a4.IsWhole) (hc : cond0_0 i)
    (x0 x1 x2 : Vec F S4096x128 .f32) :
    out0_A_3 c i a1 h1 a2 h2 a3 h3 a4 h4 hc x0 x1 x2 = nest x0 x1 x2 (k0_pay2 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x128) hz]
  simp only [readCov_cons_unit_zero (S := S1x128) _ hz, View.readAt_eq_ld, h1.read_unread, h2.read_unread,
    h3.read_unread, View.ld_unit_zero (S := S4096x128) hz]
  rfl

/-! ## One step, for any float values -/

/-- The 0/1 indicator "the entry's word is `b`" over a block of words, converted to floats. -/
private def ind (w : IVec S4096x128 32) (b : BitVec 32) : FVec F S4096x128 .f32 :=
  sitofp .f32 (extui 32 (cmpi .eq w (broadcast S4096x128 b)) natLt_1_32)

/-- A block of floats summed over its lanes and then over its rows, kept as a 1×1 cell. -/
private def cell (v : FVec F S4096x128 .f32) : FVec F S1x1 .f32 :=
  shapeCast S1x1
    (multiReduction .add [0] S1
      (shapeCast S4096x1 (multiReduction .add [1] S4096 v 0x00000000#32 reduces_S4096x128_S4096 (.inl rfl) rfl)
        shapeCasts_S4096_S4096x1)
      0x00000000#32 reduces_S4096x1_S1 (.inl rfl) rfl)
    shapeCasts_S1_S1x1

/-- One step: the row so far plus the cell in the lane numbered `b` and zero in every other lane. -/
private def step (b : BitVec 32) (cnt : FVec F S1x1 .f32) (prev : Vec F S1x128 .f32) : FVec F S1x128 .f32 :=
  addf (shapeCast S1x128 prev shapeCasts_S1x128_S1x128)
    (select (cmpi .eq lanes (broadcast S1x128 b))
      (broadcastTo S1x128 (shapeCast S1x1 cnt shapeCasts_S1x1_S1x1) broadcasts_S1x1_S1x128)
      (broadcast S1x128 (Scalar.ofBits .f32 0x00000000#32)))

/-! ## One step read at a lane, at the exact values -/

/-- A select on "the two words are equal" is the `if` on their equality. -/
private theorem select_cmpi_eq {α : Type} (x b : BitVec 32) (A B : α) :
    Scalar.select (IntOp.cmpi .eq x b) A B = if x = b then A else B := by
  show (if BitVec.ofBool (x == b) = 1#1 then A else B) = _
  by_cases h : x = b
  · rw [if_pos h, show (x == b) = true from beq_iff_eq.mpr h]; exact if_pos (by decide)
  · rw [if_neg h, show (x == b) = false from beq_eq_false_iff_ne.mpr h]; exact if_neg (by decide)

/-- The indicator at an entry is 1 where the word is `b` and 0 elsewhere. -/
private theorem ind_apply (w : IVec S4096x128 32) (b : BitVec 32) (i : S4096x128.Idx) :
    ind (F := Ideal) w b i = if w i = b then (1 : EReal) else 0 := by
  show (((((IntOp.cmpi .eq (w i) b).setWidth 32).toInt : ℤ) : ℝ) : EReal) = _
  rw [toInt_setWidth_bit]
  unfold IntOp.cmpi
  by_cases h : w i = b
  · simp [h]
  · simp [h]

/-- The cell holds the sum over rows of the sums over lanes. -/
private theorem cell_apply (v : FVec Ideal S4096x128 .f32) :
    cell v (ix2 (0 : Fin 1) (0 : Fin 1)) = ∑ r : Fin 4096, ∑ k : Fin 128, v (ix2 r k) := by
  unfold cell
  refine (shapeCast_a_1a_apply _ shapeCasts_S1_S1x1 (0 : Fin 1) (0 : Fin 1)).trans ?_
  refine (Ideal.multiReduction_add_single _ 0x00000000#32 reduces_S4096x1_S1 (.inl rfl) rfl (ix1 (0 : Fin 1))).trans ?_
  show ∑ r : Fin 4096, _ = _
  refine Finset.sum_congr rfl fun r _ => ?_
  have e1 : reduces_S4096x1_S1.lift (ix1 (0 : Fin 1)) r = ix2 r (0 : Fin 1) := by
    funext a; match a with | ⟨0, _⟩ => rfl | ⟨1, _⟩ => rfl
  rw [e1]
  refine (shapeCast_apply _ shapeCasts_S4096_S4096x1 (ix2 r (0 : Fin 1)) (ix1 r) (by
    rw [Shape.rowMajor_val_two, Shape.rowMajor_val_one]
    show r.val = r.val * 1 + 0
    omega)).trans ?_
  refine (Ideal.multiReduction_add_single v 0x00000000#32 reduces_S4096x128_S4096 (.inl rfl) rfl (ix1 r)).trans ?_
  show ∑ k : Fin 128, _ = _
  refine Finset.sum_congr rfl fun k _ => ?_
  have e2 : reduces_S4096x128_S4096.lift (ix1 r) k = ix2 r k := by
    funext a; match a with | ⟨0, _⟩ => rfl | ⟨1, _⟩ => rfl
  rw [e2]

/-- One step at lane `l`: what the row held there, plus the cell if `l` is the lane numbered `b`. -/
private theorem step_apply (b : BitVec 32) (cnt : FVec Ideal S1x1 .f32) (prev : Vec Ideal S1x128 .f32) (l : Fin 128) :
    step b cnt prev (ix2 (0 : Fin 1) l)
      = prev (ix2 (0 : Fin 1) l) + if BitVec.ofNat 32 l.val = b then cnt (ix2 (0 : Fin 1) (0 : Fin 1)) else 0 := by
  show (shapeCast S1x128 prev shapeCasts_S1x128_S1x128) (ix2 (0 : Fin 1) l)
      + Scalar.select (IntOp.cmpi .eq (lanes (ix2 (0 : Fin 1) l)) b)
          (broadcastTo S1x128 (shapeCast S1x1 cnt shapeCasts_S1x1_S1x1) broadcasts_S1x1_S1x128 (ix2 (0 : Fin 1) l))
          (Ideal.ofBits .f32 0x00000000#32) = _
  have hl : lanes (ix2 (0 : Fin 1) l) = BitVec.ofNat 32 l.val :=
    iota_single_apply .tc S1x128 32 1 iota_S1x128_d1_w32 (ix2 (0 : Fin 1) l)
  rw [shapeCast_self, select_cmpi_eq, Ideal.ofBits_zero_f32, hl,
    broadcastTo_apply _ broadcasts_S1x1_S1x128 (ix2 (0 : Fin 1) l) (ix2 (0 : Fin 1) (0 : Fin 1))
      (fun a => by match a with | ⟨0, _⟩ => rfl | ⟨1, _⟩ => rfl),
    shapeCast_self]

/-- The block's population of the word `b`: how many entries have it. -/
private def pop (w : IVec S4096x128 32) (b : BitVec 32) : EReal :=
  ∑ r : Fin 4096, ∑ k : Fin 128, if w (ix2 r k) = b then (1 : EReal) else 0

/-- The cell of the indicator of `b` holds the population of `b`. -/
private theorem cell_ind (w : IVec S4096x128 32) (b : BitVec 32) :
    cell (ind (F := Ideal) w b) (ix2 (0 : Fin 1) (0 : Fin 1)) = pop w b := by
  rw [cell_apply]
  exact Finset.sum_congr rfl fun r _ => Finset.sum_congr rfl fun k _ => ind_apply w b (ix2 r k)

/-- The body's bin word at an entry is the specification's bin of the three values there: the body negates the
    difference by subtracting it from zero. -/
private theorem pay3_apply (x0 x1 x2 : Vec Ideal S4096x128 .f32) (i : S4096x128.Idx) :
    k0_pay3 (F := Ideal) x0 x1 x2 i = binOf (x0 i) (x1 i) (x2 i) := by
  unfold k0_pay3
  simp only [shapeCast_self]
  show IntOp.minsi 9#32 (IntOp.maxsi 0#32 (Ideal.fptosi 32 (Ideal.liftRound Int.floor
      (Ideal.logistic ((Ideal.ofBits .f32 0x00000000#32 - (x0 i - x1 i)) * (two * x2 i - one)) * ten)))) = _
  rw [Ideal.ofBits_zero_f32, zero_sub]
  rfl

/-! ## The ten steps -/

/-- The first `n` steps on a starting row: bins 0 to `n - 1` in turn. -/
private def steps (w : IVec S4096x128 32) (acc : Vec F S1x128 .f32) : ℕ → FVec F S1x128 .f32
  | 0 => acc
  | n + 1 => step (BitVec.ofNat 32 n) (cell (ind w (BitVec.ofNat 32 n))) (steps w acc n)

/-- The body's nest of payloads is the ten steps over the block's bin words. -/
private theorem nest_eq_steps (x0 x1 x2 : Vec F S4096x128 .f32) (acc : Vec F S1x128 .f32) :
    nest x0 x1 x2 acc = steps (k0_pay3 x0 x1 x2) acc 10 := rfl

/-- After `n` steps lane `l` holds what it held plus, for each bin below `n` that is numbered `l`, that bin's
    population. -/
private theorem steps_apply (w : IVec S4096x128 32) (acc : Vec Ideal S1x128 .f32) (l : Fin 128) : ∀ n : ℕ,
    steps w acc n (ix2 (0 : Fin 1) l) = acc (ix2 (0 : Fin 1) l)
      + ∑ b ∈ Finset.range n, if BitVec.ofNat 32 l.val = BitVec.ofNat 32 b then pop w (BitVec.ofNat 32 b) else 0
  | 0 => by
    show acc (ix2 (0 : Fin 1) l) = _
    rw [Finset.range_zero, Finset.sum_empty, add_zero]
  | n + 1 => by
    show step (BitVec.ofNat 32 n) (cell (ind w (BitVec.ofNat 32 n))) (steps w acc n) (ix2 (0 : Fin 1) l) = _
    rw [step_apply, steps_apply w acc l n, cell_ind, Finset.sum_range_succ, add_assoc]

/-- A lane number and a bin number, both below 128, have the same word exactly when they are equal. -/
private theorem ofNat_lane_eq (l : Fin 128) (b : ℕ) (hb : b < 128) :
    BitVec.ofNat 32 l.val = BitVec.ofNat 32 b ↔ l.val = b := by
  constructor
  · intro h
    have e := congrArg BitVec.toNat h
    rw [BitVec.toNat_ofNat, BitVec.toNat_ofNat, Nat.mod_eq_of_lt (by omega), Nat.mod_eq_of_lt (by omega)] at e
    exact e
  · intro h; rw [h]

/-- THE BLOCK'S ROW. The ten steps add to lane `l` the number of entries whose bin word reads `l`: for `l` below 10
    the one step for bin `l`, whose word an entry has exactly when its word reads `l`; from 10 on nothing, and no entry's
    word reads `l` since every word reads at most 9. -/
private theorem nest_apply (x0 x1 x2 : Vec Ideal S4096x128 .f32) (acc : Vec Ideal S1x128 .f32) (l : Fin 128) :
    nest x0 x1 x2 acc (ix2 (0 : Fin 1) l) = acc (ix2 (0 : Fin 1) l)
      + ∑ r : Fin 4096, ∑ k : Fin 128,
          if (binOf (x0 (ix2 r k)) (x1 (ix2 r k)) (x2 (ix2 r k))).toInt = (l.val : ℤ) then (1 : EReal) else 0 := by
  rw [nest_eq_steps, steps_apply]
  congr 1
  have hcond : ∀ b ∈ Finset.range 10,
      (if BitVec.ofNat 32 l.val = BitVec.ofNat 32 b then pop (k0_pay3 (F := Ideal) x0 x1 x2) (BitVec.ofNat 32 b) else 0)
        = if l.val = b then pop (k0_pay3 (F := Ideal) x0 x1 x2) (BitVec.ofNat 32 b) else 0 := fun b hb => by
    have hb' : b < 128 := by have := Finset.mem_range.mp hb; omega
    exact if_congr (ofNat_lane_eq l b hb') rfl rfl
  rw [Finset.sum_congr rfl hcond, Finset.sum_ite_eq]
  by_cases hl : l.val ∈ Finset.range 10
  · rw [if_pos hl]
    have hl' : l.val < 2 ^ 31 := by have := Finset.mem_range.mp hl; omega
    unfold pop
    refine Finset.sum_congr rfl fun r _ => Finset.sum_congr rfl fun k _ => ?_
    rw [pay3_apply]
    exact if_congr (Cert.LibGather.toInt_eq_iff_eq_ofNat _ l.val hl').symm rfl rfl
  · rw [if_neg hl]
    have hl' : 10 ≤ l.val := by have := Finset.mem_range.not.mp hl; omega
    refine (Finset.sum_eq_zero fun r _ => Finset.sum_eq_zero fun k _ => if_neg fun h => ?_).symm
    have := binOf_le (x0 (ix2 r k)) (x1 (ix2 r k)) (x2 (ix2 r k))
    omega

/-- One block's population row: lane `l` holds how many of the block's entries have a bin word that reads `l`. -/
def blockHist (x0 x1 x2 : Vec Ideal S4096x128 .f32) : Vec Ideal S1x128 .f32 := fun j =>
  ∑ r : Fin 4096, ∑ k : Fin 128,
    if (binOf (x0 (ix2 r k)) (x1 (ix2 r k)) (x2 (ix2 r k))).toInt = ((j 1).val : ℤ) then (1 : EReal) else 0

/-- At the first block (the reset is taken) the body leaves the block's population row. -/
theorem out_A (c : Dev nD) (i : grid0.Coords) (a1 : Memref sig .tc .vmem S4096x128 .f32) (h1 : a1.IsWhole)
    (a2 : Memref sig .tc .vmem S4096x128 .f32) (h2 : a2.IsWhole) (a3 : Memref sig .tc .vmem S4096x128 .f32) (h3 : a3.IsWhole)
    (a4 : Memref sig .tc .vmem S1x128 .f32) (h4 : a4.IsWhole) (hc : cond0_0 i)
    (x0 x1 x2 : Vec Ideal S4096x128 .f32) :
    out0_A_3 (F := Ideal) c i a1 h1 a2 h2 a3 h3 a4 h4 hc x0 x1 x2 = blockHist x0 x1 x2 := by
  refine (out_A_nest (F := Ideal) c i a1 h1 a2 h2 a3 h3 a4 h4 hc x0 x1 x2).trans ?_
  funext j
  obtain ⟨u, l, rfl⟩ : ∃ (u : Fin 1) (l : Fin 128), j = ix2 u l := ⟨j 0, j 1, eq_ix2 j⟩
  obtain rfl : u = 0 := Subsingleton.elim _ _
  refine (nest_apply x0 x1 x2 (k0_pay2 (F := Ideal)) l).trans ?_
  show Ideal.ofBits .f32 0x00000000#32 + blockHist x0 x1 x2 (ix2 (0 : Fin 1) l) = _
  rw [Ideal.ofBits_zero_f32, zero_add]

/-- At every later block the body leaves the row it found plus the block's population row. -/
theorem out_B (c : Dev nD) (i : grid0.Coords) (a1 : Memref sig .tc .vmem S4096x128 .f32) (h1 : a1.IsWhole)
    (a2 : Memref sig .tc .vmem S4096x128 .f32) (h2 : a2.IsWhole) (a3 : Memref sig .tc .vmem S4096x128 .f32) (h3 : a3.IsWhole)
    (a4 : Memref sig .tc .vmem S1x128 .f32) (h4 : a4.IsWhole) (hc : ¬cond0_0 i)
    (x0 x1 x2 : Vec Ideal S4096x128 .f32) (xo : Vec Ideal S1x128 .f32) :
    out0_B_3 (F := Ideal) c i a1 h1 a2 h2 a3 h3 a4 h4 hc x0 x1 x2 xo = fun j => xo j + blockHist x0 x1 x2 j := by
  refine (out_B_nest (F := Ideal) c i a1 h1 a2 h2 a3 h3 a4 h4 hc x0 x1 x2 xo).trans ?_
  funext j
  obtain ⟨u, l, rfl⟩ : ∃ (u : Fin 1) (l : Fin 128), j = ix2 u l := ⟨j 0, j 1, eq_ix2 j⟩
  obtain rfl : u = 0 := Subsingleton.elim _ _
  exact nest_apply x0 x1 x2 xo l

end Cert.KernelIdeal.Region0

end
-- ==== Proof.Region0.lean ====
/-
  The first pass read as a value. The histogram pass visits the 32 row blocks in order; its one output row of 128
  lanes is reset at the first block and after block `n` holds, in lane `l`, the number of entries of blocks 0 … n
  whose bin word reads `l` (each block adds, for each of the ten bins `b`, the block's population of `b` into lane
  `b`). The row is written back once, after the last block, so the array it is written to ends holding the populations
  over all 131072 rows.
-/
import proofs.«122389_j51556787421840_1_alg».proof.Proof.HistSpec
import proofs.«122389_j51556787421840_1_alg».proof.Proof.Region0Pieces
import proofs.«122389_j51556787421840_1_alg».proof.Proof.Gen.KernelIdeal.Frame
import Idealize.ShloMosaic.Lib.Pipeline.Value
import Idealize.ShloMosaic.Lib.KernelVsHost
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.HistSpec

section Blocks

variable (V : (c : Dev nD) → (b : Ref sig .tc) → Buf (Elt Ideal) ((c : Thread nD τ).loc b))

/-! ## The blocks the pass reads -/

/-- The pass has 32 points, one for each block of 4096 rows. -/
theorem points_eq : cfg0.N = 32 := N_0

/-- Input array 0's block at point `t`: 4096 rows of 128 lanes. -/
abbrev blk0 (c : Dev nD) (t : Fin cfg0.N) : Vec Ideal S4096x128 .f32 := iblk0 (F := Ideal) V c 0 t
/-- Input array 1's block at point `t`. -/
abbrev blk1 (c : Dev nD) (t : Fin cfg0.N) : Vec Ideal S4096x128 .f32 := iblk0 (F := Ideal) V c 1 t
/-- Input array 2's block at point `t`. -/
abbrev blk2 (c : Dev nD) (t : Fin cfg0.N) : Vec Ideal S4096x128 .f32 := iblk0 (F := Ideal) V c 2 t

/-- Where the windows sit at point `t`: each input's block index is `(t, 0)` (rows `4096 t` to `4096 t + 4095`, every
    lane), the output's is `(0, 0)` at every point (its block never moves). Decided once over the 32 points. -/
theorem index_at : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0) :=
  (by decide +kernel : ∀ t : Fin grid0.N, _)

/-- Entry `(r, k)` of input 0's block at point `t` is the array's entry at row `4096 t + r`, lane `k`. -/
theorem blk0_apply (c : Dev nD) (t : Fin cfg0.N) (ht : t.val < 32) (r : Fin 4096) (k : Fin 128) :
    blk0 V c t (ix2 r k) = V c main_v0 (ix2 (rowIx ⟨t.val, ht⟩ r) k) := by
  obtain ⟨⟨e0, e1⟩, -, -, -⟩ := index_at t
  show ((cfg0.win 0).blk t).view.read (Elt Ideal) (V c (Pipeline.arrRef spec0 0)) (ix2 r k) = _
  rw [View.read_apply]
  show V c main_v0 _ = V c main_v0 _
  congr 1
  funext a
  apply Fin.ext
  match a with
  | ⟨0, _⟩ => show win0_0.index t (0 : Fin 2) * 4096 + 1 * r.val = t.val * 4096 + r.val; rw [e0]; omega
  | ⟨1, _⟩ => show win0_0.index t (1 : Fin 2) * 128 + 1 * k.val = k.val; rw [e1]; omega

/-- Entry `(r, k)` of input 1's block at point `t` is the array's entry at row `4096 t + r`, lane `k`. -/
theorem blk1_apply (c : Dev nD) (t : Fin cfg0.N) (ht : t.val < 32) (r : Fin 4096) (k : Fin 128) :
    blk1 V c t (ix2 r k) = V c main_v1 (ix2 (rowIx ⟨t.val, ht⟩ r) k) := by
  obtain ⟨-, ⟨e0, e1⟩, -, -⟩ := index_at t
  show ((cfg0.win 1).blk t).view.read (Elt Ideal) (V c (Pipeline.arrRef spec0 1)) (ix2 r k) = _
  rw [View.read_apply]
  show V c main_v1 _ = V c main_v1 _
  congr 1
  funext a
  apply Fin.ext
  match a with
  | ⟨0, _⟩ => show win0_1.index t (0 : Fin 2) * 4096 + 1 * r.val = t.val * 4096 + r.val; rw [e0]; omega
  | ⟨1, _⟩ => show win0_1.index t (1 : Fin 2) * 128 + 1 * k.val = k.val; rw [e1]; omega

/-- Entry `(r, k)` of input 2's block at point `t` is the array's entry at row `4096 t + r`, lane `k`. -/
theorem blk2_apply (c : Dev nD) (t : Fin cfg0.N) (ht : t.val < 32) (r : Fin 4096) (k : Fin 128) :
    blk2 V c t (ix2 r k) = V c main_v2 (ix2 (rowIx ⟨t.val, ht⟩ r) k) := by
  obtain ⟨-, -, ⟨e0, e1⟩, -⟩ := index_at t
  show ((cfg0.win 2).blk t).view.read (Elt Ideal) (V c (Pipeline.arrRef spec0 2)) (ix2 r k) = _
  rw [View.read_apply]
  show V c main_v2 _ = V c main_v2 _
  congr 1
  funext a
  apply Fin.ext
  match a with
  | ⟨0, _⟩ => show win0_2.index t (0 : Fin 2) * 4096 + 1 * r.val = t.val * 4096 + r.val; rw [e0]; omega
  | ⟨1, _⟩ => show win0_2.index t (1 : Fin 2) * 128 + 1 * k.val = k.val; rw [e1]; omega

/-! ## The row after each point -/

/-- The population row of the block read at point `t` (the zero row for a `t` past the last point, which no sum below
    reaches). -/
def rowAt (c : Dev nD) (t : ℕ) : Vec Ideal S1x128 .f32 :=
  if h : t < cfg0.N then blockHist (blk0 V c ⟨t, h⟩) (blk1 V c ⟨t, h⟩) (blk2 V c ⟨t, h⟩) else fun _ => (0 : EReal)

theorem rowAt_of_lt (c : Dev nD) {t : ℕ} (h : t < cfg0.N) :
    rowAt V c t = blockHist (blk0 V c ⟨t, h⟩) (blk1 V c ⟨t, h⟩) (blk2 V c ⟨t, h⟩) := dif_pos h

/-- THE RUNNING ROW. After point `n` the output row is the sum of the population rows of blocks `0 … n`: the first
    point resets it and leaves block 0's row, every later point adds its block's row to what it found. By induction on
    the point. -/
theorem outsAt_eq (c : Dev nD) : ∀ (n : ℕ) (h : n < cfg0.N),
    outsAt0 (F := Ideal) V c n h = fun j => ∑ t ∈ Finset.range (n + 1), rowAt V c t j
  | 0, h => by
    rw [outsAt0_A V c ⟨0, h⟩ rfl]
    refine (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) ((hcond0_0 ⟨0, h⟩).mpr rfl) (blk0 V c ⟨0, h⟩) (blk1 V c ⟨0, h⟩) (blk2 V c ⟨0, h⟩)).trans ?_
    funext j
    rw [Finset.sum_range_one, rowAt_of_lt V c h]
  | n + 1, h => by
    have hN : cfg0.N = 32 := N_0
    have hB : ¬(⟨n + 1, h⟩ : Fin cfg0.N).val % 32 = 0 := by dsimp only; omega
    rw [outsAt0_B V c ⟨n + 1, h⟩ hB]
    dsimp only
    refine (out_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (fun hc => hB ((hcond0_0 ⟨n + 1, h⟩).mp hc))
      (blk0 V c ⟨n + 1, h⟩) (blk1 V c ⟨n + 1, h⟩) (blk2 V c ⟨n + 1, h⟩) (outsAt0 (F := Ideal) V c n (Nat.lt_of_succ_lt h))).trans ?_
    funext j
    rw [outsAt_eq c n (Nat.lt_of_succ_lt h), Finset.sum_range_succ _ (n + 1), rowAt_of_lt V c h]

/-! ## All 32 blocks together are the array -/

/-- The 32 blocks' population rows add up to the population row of the whole arrays: block `t`'s entry `(r, k)` is the
    array's entry at row `4096 t + r`, and the rows `4096 t + r` are all 131072 rows, each once. -/
theorem sum_rowAt (c : Dev nD) :
    (fun j => ∑ t ∈ Finset.range 32, rowAt V c t j) = hist2 (V c main_v0) (V c main_v1) (V c main_v2) := by
  funext j
  unfold hist2
  refine Eq.trans ?_ (sum_rows _).symm
  rw [← Fin.sum_univ_eq_sum_range (fun t => rowAt V c t j) 32]
  refine Finset.sum_congr rfl fun t _ => ?_
  have ht : t.val < cfg0.N := by rw [points_eq]; exact t.isLt
  rw [rowAt_of_lt V c ht]
  unfold blockHist
  refine Finset.sum_congr rfl fun r _ => Finset.sum_congr rfl fun k _ => ?_
  rw [blk0_apply V c ⟨t.val, ht⟩ t.isLt r k, blk1_apply V c ⟨t.val, ht⟩ t.isLt r k, blk2_apply V c ⟨t.val, ht⟩ t.isLt r k]

/-- So after the last point the output row is the population row of the whole arrays. -/
theorem outsAt_last (c : Dev nD) (h : 31 < cfg0.N) :
    outsAt0 (F := Ideal) V c 31 h = hist2 (V c main_v0) (V c main_v1) (V c main_v2) :=
  (outsAt_eq V c 31 h).trans (sum_rowAt V c)

/-! ## The one write-back -/

/-- The output window's block sits at offset `(0, 0)` of its array at every point. -/
theorem out_offset (t : Fin cfg0.N) : (fun a => win0_3.index t a * main_v3.ty.shape.size a) = fun _ => 0 := by
  obtain ⟨-, -, -, e0, e1⟩ := index_at t
  funext a
  match a with
  | ⟨0, _⟩ => show win0_3.index t (0 : Fin 2) * _ = 0; rw [e0, Nat.zero_mul]
  | ⟨1, _⟩ => show win0_3.index t (1 : Fin 2) * _ = 0; rw [e1, Nat.zero_mul]

/-- The row is written back once, at the last point, and what is written is the whole `[1, 128]` array: the population
    row of the whole input arrays. -/
theorem flushed_eq (c : Dev nD) (t : Fin cfg0.N) (hf : (cfg0.win 3).flush t = true) :
    (dat0 (F := Ideal) V c).flushed 3 t
      = ((cfg0.win 3).blk t).view.read (Elt Ideal) (hist2 (V c main_v0) (V c main_v1) (V c main_v2)) := by
  have hN : cfg0.N = 32 := N_0
  obtain ⟨n, hn⟩ := t
  have h31 : n = 31 := by have := (flush0_3 ⟨n, hn⟩).mp hf; dsimp only at this; omega
  subst h31
  show (cfg0.win 3).cut (grid0.coords ⟨31, hn⟩) ((dat0 (F := Ideal) V c).after 3 ⟨31, hn⟩) = _
  rw [after0_3]
  show (cfg0.win 3).cut (grid0.coords ⟨31, hn⟩) (outsAt0 (F := Ideal) V c 31 hn) = _
  rw [outsAt_last V c hn]
  exact (Memref.read_access_unit_zero (Elt Ideal) main_v3 (out_offset ⟨31, hn⟩)
    (fun a => by rw [congrFun (out_offset ⟨31, hn⟩) a]; simp) (hist2 (V c main_v0) (V c main_v1) (V c main_v2))).symm

end Blocks

/-- Whatever the buffers hold when the first pass is entered (`V`), the array its output window is written back to
    ends holding the population row of the three input arrays as entered. -/
theorem final (V : (c : Dev nD) → (b : Ref sig .tc) → Buf (Elt Ideal) ((c : Thread nD τ).loc b)) (c : Dev nD) :
    (dat0 (F := Ideal) V c).arrAt 3 cfg0.N = hist2 (V c main_v0) (V c main_v1) (V c main_v2) := by
  have h31 : 31 < cfg0.N := by rw [points_eq]; decide
  refine (dat0 (F := Ideal) V c).arrAt_eq_of_cover 3 (hist2 (V c main_v0) (V c main_v1) (V c main_v2)) (flushed_eq V c) fun i => ?_
  refine ⟨⟨31, h31⟩, (flush0_3 ⟨31, h31⟩).mpr rfl, ?_⟩
  show i ∈ ((View.whole main_v3).slice (win0_3.rect ⟨31, h31⟩)).set
  rw [View.set_slice_whole]
  exact View.mem_set_unit_zero (S := S1x128) (out_offset ⟨31, h31⟩) _ i

end Cert.KernelIdeal.Region0

end
-- ==== Proof.Region1Pieces.lean ====
/-
  One block of the second pass read as a value. On a block of 4096 rows by 128 lanes, with the row of weights in hand,
  the weighting body computes each entry's bin word and ranking loss, picks the entry's weight by a chain of ten selects
  on the word (starting from zero: "if the word is 0 take lane 0's weight", …, "if the word is 9 take lane 9's"; the
  word reads between 0 and 9, so exactly the lane it names is taken), multiplies, sums over lanes and then rows, reads
  the output cell back and adds. So after the body the cell holds what it held before plus the block's weighted loss. At
  the first block the cell is first reset to zero.
-/
import proofs.«122389_j51556787421840_1_alg».proof.Proof.HistSpec
import proofs.«122389_j51556787421840_1_alg».proof.Proof.LibGather
import proofs.«122389_j51556787421840_1_alg».proof.Proof.Gen.KernelIdeal.Frame
import Idealize.ShloMosaic.Lib.Pipeline.Value
import Idealize.ShloMosaic.Lib.KernelVsHost
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.HistSpec

/-- One block's weighted loss: over its entries, the ranking loss times the weight in the lane the entry's bin names. -/
def blockTot (x0 x1 x2 : Vec Ideal S4096x128 .f32) (wp : Vec Ideal S1x128 .f32) : Vec Ideal S1x1 .f32 := fun _ =>
  ∑ r : Fin 4096, ∑ k : Fin 128,
    lossOf (x0 (ix2 r k)) (x1 (ix2 r k)) (x2 (ix2 r k))
      * wp (ix2 (0 : Fin 1) (laneOf (slot (x0 (ix2 r k)) (x1 (ix2 r k)) (x2 (ix2 r k)))))

/-! ## What the stores leave, for any float values -/

section AnyValues
variable {F : FTy → Type} [FloatOps F]

/-- The offsets of an access to a whole block are zero on both axes. -/
private theorem hz : (![0, 0] : Fin 2 → Nat) = fun _ => 0 := funext fun a => by fin_cases a <;> rfl

/-- The body's arithmetic as one function of the three blocks, the weight row and the cell it reads back: the cell plus
    the sum, over the block's lanes and then rows, of ranking loss times selected weight. -/
private def bodyVal (x0 x1 x2 : Vec F S4096x128 .f32) (x3 : Vec F S1x128 .f32) (xo : Vec F S1x1 .f32) : FVec F S1x1 .f32 :=
  k1_pay1 (k1_pay5 x0 x1 x2) (k1_pay6 x0 x1 x2)
    (k1_pay11 (k1_pay5 x0 x1 x2) (k1_pay7 x3) k1_pay8 (k1_pay9 x3) (k1_pay10 x0 x1 x2)) (k1_pay12 (k1_pay7 x3)) xo

/-- At a later block the one store covers the cell, and its loads read the whole buffers: the cell is left at the
    body's arithmetic on the cell it found. -/
private theorem stored_B (c : Dev nD) (i : grid1.Coords) (a1 : Memref sig .tc .vmem S4096x128 .f32) (h1 : a1.IsWhole)
    (a2 : Memref sig .tc .vmem S4096x128 .f32) (h2 : a2.IsWhole) (a3 : Memref sig .tc .vmem S4096x128 .f32) (h3 : a3.IsWhole)
    (a4 : Memref sig .tc .vmem S1x128 .f32) (h4 : a4.IsWhole) (a5 : Memref sig .tc .vmem S1x1 .f32) (h5 : a5.IsWhole)
    (hc : ¬cond1_0 i) (x0 x1 x2 : Vec F S4096x128 .f32) (x3 : Vec F S1x128 .f32) (xo : Vec F S1x1 .f32) :
    out1_B_4 (F := F) c i a1 h1 a2 h2 a3 h3 a4 h4 a5 h5 hc x0 x1 x2 x3 xo = bodyVal x0 x1 x2 x3 xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero hz]
  simp only [View.readAt_eq_ld, h1.read_unread, h2.read_unread, h3.read_unread, h4.read_unread, h5.read_unread,
    View.ld_unit_zero (S := S4096x128) hz, View.ld_unit_zero (S := S1x128) hz, View.ld_unit_zero (S := S1x1) hz]
  rfl

/-- At the first block the reset stores the zero cell, the later store covers it, and the load between them reads the
    zero cell back: the cell is left at the body's arithmetic on the zero cell. -/
private theorem stored_A (c : Dev nD) (i : grid1.Coords) (a1 : Memref sig .tc .vmem S4096x128 .f32) (h1 : a1.IsWhole)
    (a2 : Memref sig .tc .vmem S4096x128 .f32) (h2 : a2.IsWhole) (a3 : Memref sig .tc .vmem S4096x128 .f32) (h3 : a3.IsWhole)
    (a4 : Memref sig .tc .vmem S1x128 .f32) (h4 : a4.IsWhole) (a5 : Memref sig .tc .vmem S1x1 .f32) (h5 : a5.IsWhole)
    (hc : cond1_0 i) (x0 x1 x2 : Vec F S4096x128 .f32) (x3 : Vec F S1x128 .f32) :
    out1_A_4 (F := F) c i a1 h1 a2 h2 a3 h3 a4 h4 a5 h5 hc x0 x1 x2 x3 = bodyVal x0 x1 x2 x3 (k1_pay2 (F := F)) := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S4096x128) hz, View.ld_unit_zero (S := S1x128) hz, View.ld_unit_zero (S := S1x1) hz]
  rfl

end AnyValues

/-! ## One entry of the block, over the extended reals -/

/-- A block read through a cast to its own shape is the block. -/
private theorem cast_block (x : Vec Ideal S4096x128 .f32) :
    shapeCast S4096x128 x shapeCasts_S4096x128_S4096x128 = x := shapeCast_self _ _

/-- The weight row read through a cast to its own shape is the weight row. -/
private theorem cast_row (x3 : Vec Ideal S1x128 .f32) : k1_pay7 (F := Ideal) x3 = x3 := shapeCast_self _ _

/-- The bin word the body computes at entry `(r, k)` is the specification's: the logistic of `(0 − (a − b)) · (2t − 1)`,
    times ten, floored, converted, clamped; `0 − d` is `−d`. -/
private theorem word_at (x0 x1 x2 : Vec Ideal S4096x128 .f32) (r : Fin 4096) (k : Fin 128) :
    k1_pay5 (F := Ideal) x0 x1 x2 (ix2 r k) = binOf (x0 (ix2 r k)) (x1 (ix2 r k)) (x2 (ix2 r k)) := by
  unfold k1_pay5 k1_pay4 k1_pay3
  rw [cast_block x0, cast_block x1, cast_block x2]
  show IntOp.minsi 9#32 (IntOp.maxsi 0#32 (Ideal.fptosi 32 (Ideal.liftRound Int.floor
    (Ideal.logistic ((Ideal.ofBits .f32 0x00000000#32 - ((x0 (ix2 r k) : EReal) - x1 (ix2 r k)))
      * (two * x2 (ix2 r k) - one)) * ten)))) = _
  rw [Ideal.ofBits_zero_f32, zero_sub]
  rfl

/-- The ranking loss the body computes at entry `(r, k)` is the specification's: `max 0 ((0 − t) · (a − b))`. -/
private theorem loss_at (x0 x1 x2 : Vec Ideal S4096x128 .f32) (r : Fin 4096) (k : Fin 128) :
    k1_pay6 (F := Ideal) x0 x1 x2 (ix2 r k) = lossOf (x0 (ix2 r k)) (x1 (ix2 r k)) (x2 (ix2 r k)) := by
  unfold k1_pay6 k1_pay4 k1_pay3
  rw [cast_block x0, cast_block x1, cast_block x2]
  show max (Ideal.ofBits .f32 0x00000000#32) ((Ideal.ofBits .f32 0x00000000#32 - (x2 (ix2 r k) : EReal))
    * ((x0 (ix2 r k) : EReal) - x1 (ix2 r k))) = _
  rw [Ideal.ofBits_zero_f32, zero_sub]
  rfl

/-- The weight cut out of the row at lane `b` (a one-cell slice at offset `(0, b)`, then its one cell) is the row's
    entry in lane `b`. -/
private theorem weight_at (x3 : Vec Ideal S1x128 .f32) (b : Fin 128) (h : S1x128.Slices ![0, b.val] S1x1)
    (hp : ∀ a, (![0, 0] : Fin 2 → Nat) a < S1x1.size a) :
    extractAt ![0, 0] (extractStridedSlice S1x1 ![0, b.val] x3 h) hp = x3 (ix2 (0 : Fin 1) b) := by
  unfold extractAt
  refine extractStridedSlice_apply _ x3 h _ (ix2 (0 : Fin 1) b) fun a => ?_
  match a with
  | ⟨0, _⟩ => rfl
  | ⟨1, _⟩ => rfl

/-- The chain of ten selects on a word: from `z`, step `b` takes `e b` where the word is `b`; a later step
    overrides an earlier one. -/
private def pick {α : Type} (w : BitVec 32) (e0 e1 e2 e3 e4 e5 e6 e7 e8 e9 z : α) : α :=
  Scalar.select (IntOp.cmpi .eq w 9#32) e9
  (Scalar.select (IntOp.cmpi .eq w 8#32) e8
  (Scalar.select (IntOp.cmpi .eq w 7#32) e7
  (Scalar.select (IntOp.cmpi .eq w 6#32) e6
  (Scalar.select (IntOp.cmpi .eq w 5#32) e5
  (Scalar.select (IntOp.cmpi .eq w 4#32) e4
  (Scalar.select (IntOp.cmpi .eq w 3#32) e3
  (Scalar.select (IntOp.cmpi .eq w 2#32) e2
  (Scalar.select (IntOp.cmpi .eq w 1#32) e1
  (Scalar.select (IntOp.cmpi .eq w 0#32) e0 z)))))))))

/-- On the word of position `s` among the ten, the chain takes exactly lane `s`'s value: the ten words are distinct,
    so every other step passes its predecessor on. -/
private theorem pick_of {α : Type} (w : BitVec 32) (s : Fin 10) (hw : w = BitVec.ofNat 32 s.val) (g : Fin 128 → α) (z : α) :
    pick w (g (laneOf 0)) (g (laneOf 1)) (g (laneOf 2)) (g (laneOf 3)) (g (laneOf 4)) (g (laneOf 5)) (g (laneOf 6))
      (g (laneOf 7)) (g (laneOf 8)) (g (laneOf 9)) z = g (laneOf s) := by
  subst hw
  fin_cases s <;> rfl

/-- The bin word at an entry is the word of the entry's position among the ten: it reads between 0 and 9. -/
private theorem word_eq_slot (a b t : EReal) : binOf a b t = BitVec.ofNat 32 (slot a b t).val :=
  (Cert.LibGather.toInt_eq_iff_eq_ofNat (binOf a b t) (slot a b t).val (by have := (slot a b t).isLt; omega)).mp
    (slot_val a b t).symm

/-- The weight the chain of selects picks at entry `(r, k)`: the weight row's entry in the lane the entry's bin names. -/
private theorem sel_at (x0 x1 x2 : Vec Ideal S4096x128 .f32) (x3 : Vec Ideal S1x128 .f32) (r : Fin 4096) (k : Fin 128) :
    select (cmpi .eq (k1_pay5 (F := Ideal) x0 x1 x2) (broadcast S4096x128 9#32))
        (broadcast S4096x128 (k1_pay12 (F := Ideal) (k1_pay7 x3)))
        (k1_pay11 (k1_pay5 x0 x1 x2) (k1_pay7 x3) (k1_pay8 (F := Ideal)) (k1_pay9 x3) (k1_pay10 x0 x1 x2)) (ix2 r k)
      = x3 (ix2 (0 : Fin 1) (laneOf (slot (x0 (ix2 r k)) (x1 (ix2 r k)) (x2 (ix2 r k))))) := by
  have hw : k1_pay5 (F := Ideal) x0 x1 x2 (ix2 r k)
      = BitVec.ofNat 32 (slot (x0 (ix2 r k)) (x1 (ix2 r k)) (x2 (ix2 r k))).val :=
    (word_at x0 x1 x2 r k).trans (word_eq_slot _ _ _)
  refine Eq.trans ?_ (pick_of (k1_pay5 (F := Ideal) x0 x1 x2 (ix2 r k)) _ hw (fun l => x3 (ix2 (0 : Fin 1) l))
    (Ideal.ofBits .f32 0x00000000#32))
  unfold k1_pay11 k1_pay12 k1_pay9 k1_pay10 k1_pay8
  rw [cast_row x3]
  have e0 := weight_at x3 (laneOf 0) slices_S1x128_o0_0_S1x1 inpos_S1x1_p0_0
  have e1 := weight_at x3 (laneOf 1) slices_S1x128_o0_1_S1x1 inpos_S1x1_p0_0
  have e2 := weight_at x3 (laneOf 2) slices_S1x128_o0_2_S1x1 inpos_S1x1_p0_0
  have e3 := weight_at x3 (laneOf 3) slices_S1x128_o0_3_S1x1 inpos_S1x1_p0_0
  have e4 := weight_at x3 (laneOf 4) slices_S1x128_o0_4_S1x1 inpos_S1x1_p0_0
  have e5 := weight_at x3 (laneOf 5) slices_S1x128_o0_5_S1x1 inpos_S1x1_p0_0
  have e6 := weight_at x3 (laneOf 6) slices_S1x128_o0_6_S1x1 inpos_S1x1_p0_0
  have e7 := weight_at x3 (laneOf 7) slices_S1x128_o0_7_S1x1 inpos_S1x1_p0_0
  have e8 := weight_at x3 (laneOf 8) slices_S1x128_o0_8_S1x1 inpos_S1x1_p0_0
  have e9 := weight_at x3 (laneOf 9) slices_S1x128_o0_9_S1x1 inpos_S1x1_p0_0
  rw [← e0, ← e1, ← e2, ← e3, ← e4, ← e5, ← e6, ← e7, ← e8, ← e9]
  rfl

/-! ## The two sums -/

/-- Inserting lane `k` into row `r` gives entry `(r, k)` of the block. -/
private theorem lift_lane (r : Fin 4096) (k : Fin 128) :
    reduces_S4096x128_S4096.lift (ix1 r) k = ix2 r k := by
  funext a
  match a with
  | ⟨0, _⟩ => exact Fin.ext rfl
  | ⟨1, _⟩ => exact Fin.ext rfl

/-- Inserting row `r` above the one column gives entry `(r, 0)` of the column of row sums. -/
private theorem lift_row (r : Fin 4096) :
    reduces_S4096x1_S1.lift (ix1 (0 : Fin 1)) r = ix2 r (0 : Fin 1) := by
  funext a
  match a with
  | ⟨0, _⟩ => exact Fin.ext rfl
  | ⟨1, _⟩ => exact Fin.ext rfl

/-- A block summed over its lanes, the row sums stood up as a column and summed over the rows, the one sum laid in the
    one cell and added to the cell read back: at the cell, what was read plus the double sum of the block. -/
private theorem total_apply (p : FVec Ideal S4096x128 .f32) (xo : FVec Ideal S1x1 .f32) (j : S1x1.Idx)
    (hφ : FKind.Formats .f32) (hacc : (0x00000000#32 : BitVec 32) = FKind.add.neutral .f32 hφ) :
    addf (F := Ideal) (shapeCast S1x1 xo shapeCasts_S1x1_S1x1)
      (shapeCast S1x1 (multiReduction (F := Ideal) .add [0] S1
        (shapeCast S4096x1 (multiReduction (F := Ideal) .add [1] S4096 p 0x00000000#32 reduces_S4096x128_S4096 hφ hacc)
          shapeCasts_S4096_S4096x1) 0x00000000#32 reduces_S4096x1_S1 hφ hacc) shapeCasts_S1_S1x1) j
      = xo j + ∑ r : Fin 4096, ∑ k : Fin 128, p (ix2 r k) := by
  obtain ⟨a, b, rfl⟩ : ∃ (a : Fin 1) (b : Fin 1), j = ix2 a b := ⟨j 0, j 1, eq_ix2 j⟩
  have ea : a = 0 := Subsingleton.elim _ _
  have eb : b = 0 := Subsingleton.elim _ _
  subst ea eb
  rw [shapeCast_self xo shapeCasts_S1x1_S1x1]
  refine congrArg (fun y : EReal => xo (ix2 (0 : Fin 1) (0 : Fin 1)) + y) ?_
  refine (shapeCast_apply _ shapeCasts_S1_S1x1 (ix2 (0 : Fin 1) (0 : Fin 1)) (ix1 (0 : Fin 1)) ?_).trans ?_
  · rw [Shape.rowMajor_val_one, Shape.rowMajor_val_two]; rfl
  refine (Ideal.multiReduction_add_single _ 0x00000000#32 reduces_S4096x1_S1 hφ hacc (ix1 (0 : Fin 1))).trans ?_
  show ∑ r : Fin 4096, shapeCast S4096x1 _ shapeCasts_S4096_S4096x1 (reduces_S4096x1_S1.lift (ix1 (0 : Fin 1)) r) = _
  refine Finset.sum_congr rfl fun r _ => ?_
  rw [lift_row r]
  refine (shapeCast_apply _ shapeCasts_S4096_S4096x1 (ix2 r (0 : Fin 1)) (ix1 r) ?_).trans ?_
  · rw [Shape.rowMajor_val_one, Shape.rowMajor_val_two]; show r.val = r.val * 1 + 0; omega
  refine (Ideal.multiReduction_add_single p 0x00000000#32 reduces_S4096x128_S4096 hφ hacc (ix1 r)).trans ?_
  show ∑ k : Fin 128, p (reduces_S4096x128_S4096.lift (ix1 r) k) = _
  refine Finset.sum_congr rfl fun k _ => ?_
  rw [lift_lane r k]

/-- Loss times selected weight, entry by entry: the block the body sums. -/
private def weighted (x0 x1 x2 : Vec Ideal S4096x128 .f32) (x3 : Vec Ideal S1x128 .f32) : FVec Ideal S4096x128 .f32 :=
  mulf (k1_pay6 (F := Ideal) x0 x1 x2)
    (select (cmpi .eq (k1_pay5 (F := Ideal) x0 x1 x2) (broadcast S4096x128 9#32))
      (broadcast S4096x128 (k1_pay12 (F := Ideal) (k1_pay7 x3)))
      (k1_pay11 (k1_pay5 x0 x1 x2) (k1_pay7 x3) (k1_pay8 (F := Ideal)) (k1_pay9 x3) (k1_pay10 x0 x1 x2)))

/-- At entry `(r, k)`: the entry's ranking loss times the weight in the lane its bin names. -/
private theorem weighted_at (x0 x1 x2 : Vec Ideal S4096x128 .f32) (x3 : Vec Ideal S1x128 .f32) (r : Fin 4096) (k : Fin 128) :
    weighted x0 x1 x2 x3 (ix2 r k) = lossOf (x0 (ix2 r k)) (x1 (ix2 r k)) (x2 (ix2 r k))
      * x3 (ix2 (0 : Fin 1) (laneOf (slot (x0 (ix2 r k)) (x1 (ix2 r k)) (x2 (ix2 r k))))) := by
  unfold weighted
  refine (mulf_apply _ _ (ix2 r k)).trans ?_
  rw [loss_at x0 x1 x2 r k, sel_at x0 x1 x2 x3 r k]

/-- The body's arithmetic at the cell: the cell it read back plus the block's weighted loss. -/
private theorem bodyVal_apply (x0 x1 x2 : Vec Ideal S4096x128 .f32) (x3 : Vec Ideal S1x128 .f32) (xo : Vec Ideal S1x1 .f32)
    (j : S1x1.Idx) : bodyVal (F := Ideal) x0 x1 x2 x3 xo j = xo j + blockTot x0 x1 x2 x3 j := by
  unfold bodyVal k1_pay1
  refine (total_apply (weighted x0 x1 x2 x3) xo j (.inl rfl) rfl).trans ?_
  unfold blockTot
  refine congrArg (fun y : EReal => xo j + y) ?_
  exact Finset.sum_congr rfl fun r _ => Finset.sum_congr rfl fun k _ => weighted_at x0 x1 x2 x3 r k

/-- The zero cell the reset stores holds the real number zero. -/
private theorem zeroCell_apply (j : S1x1.Idx) : k1_pay2 (F := Ideal) j = 0 := Ideal.ofBits_zero_f32

/-! ## The two cases -/

/-- At the first block (the reset is taken) the body leaves the block's weighted loss. -/
theorem out_A (c : Dev nD) (i : grid1.Coords) (a1 : Memref sig .tc .vmem S4096x128 .f32) (h1 : a1.IsWhole)
    (a2 : Memref sig .tc .vmem S4096x128 .f32) (h2 : a2.IsWhole) (a3 : Memref sig .tc .vmem S4096x128 .f32) (h3 : a3.IsWhole)
    (a4 : Memref sig .tc .vmem S1x128 .f32) (h4 : a4.IsWhole) (a5 : Memref sig .tc .vmem S1x1 .f32) (h5 : a5.IsWhole)
    (hc : cond1_0 i) (x0 x1 x2 : Vec Ideal S4096x128 .f32) (x3 : Vec Ideal S1x128 .f32) :
    out1_A_4 (F := Ideal) c i a1 h1 a2 h2 a3 h3 a4 h4 a5 h5 hc x0 x1 x2 x3 = blockTot x0 x1 x2 x3 := by
  rw [stored_A c i a1 h1 a2 h2 a3 h3 a4 h4 a5 h5 hc x0 x1 x2 x3]
  funext j
  rw [bodyVal_apply x0 x1 x2 x3 (k1_pay2 (F := Ideal)) j, zeroCell_apply j, zero_add]

/-- At every later block the body leaves the cell it found plus the block's weighted loss. -/
theorem out_B (c : Dev nD) (i : grid1.Coords) (a1 : Memref sig .tc .vmem S4096x128 .f32) (h1 : a1.IsWhole)
    (a2 : Memref sig .tc .vmem S4096x128 .f32) (h2 : a2.IsWhole) (a3 : Memref sig .tc .vmem S4096x128 .f32) (h3 : a3.IsWhole)
    (a4 : Memref sig .tc .vmem S1x128 .f32) (h4 : a4.IsWhole) (a5 : Memref sig .tc .vmem S1x1 .f32) (h5 : a5.IsWhole)
    (hc : ¬cond1_0 i) (x0 x1 x2 : Vec Ideal S4096x128 .f32) (x3 : Vec Ideal S1x128 .f32) (xo : Vec Ideal S1x1 .f32) :
    out1_B_4 (F := Ideal) c i a1 h1 a2 h2 a3 h3 a4 h4 a5 h5 hc x0 x1 x2 x3 xo = fun j => xo j + blockTot x0 x1 x2 x3 j := by
  rw [stored_B c i a1 h1 a2 h2 a3 h3 a4 h4 a5 h5 hc x0 x1 x2 x3 xo]
  funext j
  exact bodyVal_apply x0 x1 x2 x3 xo j

end Cert.KernelIdeal.Region1

end
-- ==== Proof.Region1.lean ====
/-
  The second pass read as a value. The weighting pass visits the 32 row blocks in order with the row of weights held
  fixed; its one output cell is reset at the first block and after block `n` holds the sum, over the entries of blocks
  0 … n, of the entry's ranking loss times the weight in the lane its bin word names (the ten-way chain of selects on
  the bin word picks that lane, because the word reads between 0 and 9). The cell is written back once, after the last
  block, so the array it is written to ends holding the weighted loss summed over all 131072 rows.
-/
import proofs.«122389_j51556787421840_1_alg».proof.Proof.HistSpec
import proofs.«122389_j51556787421840_1_alg».proof.Proof.Region1Pieces
import proofs.«122389_j51556787421840_1_alg».proof.Proof.Gen.KernelIdeal.Frame
import Idealize.ShloMosaic.Lib.Pipeline.Value
import Idealize.ShloMosaic.Lib.KernelVsHost
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.HistSpec

section Total

variable (V : (c : Dev nD) → (b : Ref sig .tc) → Buf (Elt Ideal) ((c : Thread nD τ).loc b))

/-! ## What the windows show at a point -/

/-- A point of the pass's grid as one of the 32 row blocks. -/
abbrev pointBlock (t : Fin cfg1.N) : Fin 32 := ⟨t.val, lt_of_lt_of_eq t.isLt (show cfg1.N = 32 from N_1)⟩

/-- The three input blocks and the weight row the body is given at point `t`, each by its own shape. -/
abbrev rowsA (c : Dev nD) (t : Fin cfg1.N) : Vec Ideal S4096x128 .f32 := iblk1 (F := Ideal) V c 0 t
abbrev rowsB (c : Dev nD) (t : Fin cfg1.N) : Vec Ideal S4096x128 .f32 := iblk1 (F := Ideal) V c 1 t
abbrev rowsT (c : Dev nD) (t : Fin cfg1.N) : Vec Ideal S4096x128 .f32 := iblk1 (F := Ideal) V c 2 t
abbrev rowW (c : Dev nD) (t : Fin cfg1.N) : Vec Ideal S1x128 .f32 := iblk1 (F := Ideal) V c 3 t

/-- The three input windows move down the rows with the point and stay on lane block 0; the weight row's window and
    the output cell's never move. -/
private theorem index_rows : ∀ t : Fin cfg1.N,
    (win1_0.index t 0 = t.val ∧ win1_0.index t 1 = 0) ∧ (win1_1.index t 0 = t.val ∧ win1_1.index t 1 = 0)
      ∧ (win1_2.index t 0 = t.val ∧ win1_2.index t 1 = 0) :=
  (by decide +kernel : ∀ t : Fin grid1.N,
    (win1_0.index t 0 = t.val ∧ win1_0.index t 1 = 0) ∧ (win1_1.index t 0 = t.val ∧ win1_1.index t 1 = 0)
      ∧ (win1_2.index t 0 = t.val ∧ win1_2.index t 1 = 0))

private theorem index_fixed : ∀ t : Fin cfg1.N,
    (win1_3.index t 0 = 0 ∧ win1_3.index t 1 = 0) ∧ (win1_4.index t 0 = 0 ∧ win1_4.index t 1 = 0) :=
  (by decide +kernel : ∀ t : Fin grid1.N,
    (win1_3.index t 0 = 0 ∧ win1_3.index t 1 = 0) ∧ (win1_4.index t 0 = 0 ∧ win1_4.index t 1 = 0))

/-- Entry `(r, k)` of the first input's block at point `t` is the array's entry in row `4096 t + r`, lane `k`. -/
theorem rowsA_apply (c : Dev nD) (t : Fin cfg1.N) (r : Fin 4096) (k : Fin 128) :
    rowsA V c t (ix2 r k) = V c main_v0 (ix2 (rowIx (pointBlock t) r) k) := by
  show iblk1 V c 0 t (ix2 r k) = _
  unfold iblk1
  rw [View.read_apply]
  show V c main_v0 _ = V c main_v0 _
  congr 1
  funext a
  apply Fin.ext
  match a with
  | ⟨0, _⟩ => show win1_0.index t 0 * 4096 + 1 * r.val = t.val * 4096 + r.val; rw [(index_rows t).1.1]; omega
  | ⟨1, _⟩ => show win1_0.index t 1 * 128 + 1 * k.val = k.val; rw [(index_rows t).1.2]; omega

/-- The same for the second input. -/
theorem rowsB_apply (c : Dev nD) (t : Fin cfg1.N) (r : Fin 4096) (k : Fin 128) :
    rowsB V c t (ix2 r k) = V c main_v1 (ix2 (rowIx (pointBlock t) r) k) := by
  show iblk1 V c 1 t (ix2 r k) = _
  unfold iblk1
  rw [View.read_apply]
  show V c main_v1 _ = V c main_v1 _
  congr 1
  funext a
  apply Fin.ext
  match a with
  | ⟨0, _⟩ => show win1_1.index t 0 * 4096 + 1 * r.val = t.val * 4096 + r.val; rw [(index_rows t).2.1.1]; omega
  | ⟨1, _⟩ => show win1_1.index t 1 * 128 + 1 * k.val = k.val; rw [(index_rows t).2.1.2]; omega

/-- The same for the third input. -/
theorem rowsT_apply (c : Dev nD) (t : Fin cfg1.N) (r : Fin 4096) (k : Fin 128) :
    rowsT V c t (ix2 r k) = V c main_v2 (ix2 (rowIx (pointBlock t) r) k) := by
  show iblk1 V c 2 t (ix2 r k) = _
  unfold iblk1
  rw [View.read_apply]
  show V c main_v2 _ = V c main_v2 _
  congr 1
  funext a
  apply Fin.ext
  match a with
  | ⟨0, _⟩ => show win1_2.index t 0 * 4096 + 1 * r.val = t.val * 4096 + r.val; rw [(index_rows t).2.2.1]; omega
  | ⟨1, _⟩ => show win1_2.index t 1 * 128 + 1 * k.val = k.val; rw [(index_rows t).2.2.2]; omega

/-- The weight row's block is the whole [1,128] array at every point: block (0, 0) read through zero offsets. -/
theorem rowW_eq (c : Dev nD) (t : Fin cfg1.N) : rowW V c t = V c main_v14 := by
  have hz : (fun a => win1_3.index t a * main_v14.ty.shape.size a) = fun _ => 0 := by
    funext a
    match a with
    | ⟨0, _⟩ => show win1_3.index t 0 * 1 = 0; rw [(index_fixed t).1.1]
    | ⟨1, _⟩ => show win1_3.index t 1 * 128 = 0; rw [(index_fixed t).1.2]
  exact Memref.read_access_unit_zero (Elt Ideal) main_v14 hz (fun a => by rw [congrFun hz a]; simp) (V c main_v14)

/-! ## Shares of the total -/

/-- One entry's share of the total: its ranking loss times the weight in the lane its bin names. -/
def share (X0 X1 X2 : Rows.Idx → EReal) (Wp : Lanes.Idx → EReal) (p : Fin 131072) (q : Fin 128) : EReal :=
  lossOf (X0 (ix2 p q)) (X1 (ix2 p q)) (X2 (ix2 p q))
    * Wp (ix2 (0 : Fin 1) (laneOf (slot (X0 (ix2 p q)) (X1 (ix2 p q)) (X2 (ix2 p q)))))

/-- Row block `s`'s share: the shares of the entries in rows `4096 s … 4096 s + 4095`; nothing for an `s` past the
    last block (so that a sum over `s` below a bound needs no proof that `s` is a block). -/
def blockShare (c : Dev nD) (s : ℕ) : EReal :=
  if h : s < 32 then
    ∑ r : Fin 4096, ∑ k : Fin 128, share (V c main_v0) (V c main_v1) (V c main_v2) (V c main_v14) (rowIx ⟨s, h⟩ r) k
  else 0

/-- The weighted loss of the blocks the body is given at point `t` is row block `t`'s share. -/
theorem blockTot_rows (c : Dev nD) (t : Fin cfg1.N) (j : S1x1.Idx) :
    blockTot (rowsA V c t) (rowsB V c t) (rowsT V c t) (rowW V c t) j = blockShare V c t.val := by
  unfold blockShare
  rw [dif_pos (lt_of_lt_of_eq t.isLt (show cfg1.N = 32 from N_1)), rowW_eq]
  unfold blockTot share
  refine Finset.sum_congr rfl fun r _ => Finset.sum_congr rfl fun k _ => ?_
  rw [rowsA_apply, rowsB_apply, rowsT_apply]

/-! ## The running total, and what is written back -/

/-- THE RUNNING TOTAL. After point `n` the output cell holds the shares of row blocks `0 … n`: the first point leaves
    block 0's (the reset is taken there), every later point adds its block's to what the point before left. -/
theorem running_total (c : Dev nD) : ∀ (n : ℕ) (h : n < cfg1.N),
    outsAt1 (F := Ideal) V c n h = fun _ => ∑ s ∈ Finset.range (n + 1), blockShare V c s
  | 0, h => by
    refine (outsAt1_A V c ⟨0, h⟩ rfl).trans ?_
    refine (out_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
      (ms1_3 ⟨0, h⟩) (hs1_3 ⟨0, h⟩) (ms1_4 ⟨0, h⟩) (hs1_4 ⟨0, h⟩) ((hcond1_0 ⟨0, h⟩).mpr rfl)
      (rowsA V c ⟨0, h⟩) (rowsB V c ⟨0, h⟩) (rowsT V c ⟨0, h⟩) (rowW V c ⟨0, h⟩)).trans ?_
    funext j
    rw [blockTot_rows, Finset.sum_range_one]
  | n + 1, h => by
    have hN : cfg1.N = 32 := N_1
    have hB : ¬(⟨n + 1, h⟩ : Fin cfg1.N).val % 32 = 0 := by dsimp only; omega
    rw [outsAt1_B V c ⟨n + 1, h⟩ hB]
    dsimp only
    refine (out_B c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩)
      (fun hc => hB ((hcond1_0 ⟨n + 1, h⟩).mp hc))
      (rowsA V c ⟨n + 1, h⟩) (rowsB V c ⟨n + 1, h⟩) (rowsT V c ⟨n + 1, h⟩) (rowW V c ⟨n + 1, h⟩)
      (outsAt1 (F := Ideal) V c n (Nat.lt_of_succ_lt h))).trans ?_
    funext j
    rw [blockTot_rows, running_total c n (Nat.lt_of_succ_lt h), Finset.sum_range_succ _ (n + 1)]

/-- The shares of all 32 row blocks, as contents of the [1,1] array. -/
abbrev grandTotal (c : Dev nD) : Vec Ideal S1x1 .f32 :=
  fun _ => ∑ s ∈ Finset.range 32, blockShare V c s

/-- The one write-back, after the last block, writes the running total of all 32 blocks: the cell is the whole [1,1]
    array, read through zero offsets. -/
theorem written_back (c : Dev nD) (t : Fin cfg1.N) (hf : (cfg1.win 4).flush t = true) :
    (dat1 (F := Ideal) V c).flushed 4 t = ((cfg1.win 4).blk t).view.read (Elt Ideal) (grandTotal V c) := by
  have hN : cfg1.N = 32 := N_1
  have h31 : t.val = 31 := by have := (flush1_4 t).mp hf; have := t.isLt; omega
  show (cfg1.win 4).cut (grid1.coords t) ((dat1 (F := Ideal) V c).after 4 t) = _
  rw [after1_4, running_total]
  have hz : (fun a => win1_4.index t a * main_v15.ty.shape.size a) = fun _ => 0 := by
    funext a
    match a with
    | ⟨0, _⟩ => show win1_4.index t 0 * 1 = 0; rw [(index_fixed t).2.1]
    | ⟨1, _⟩ => show win1_4.index t 1 * 1 = 0; rw [(index_fixed t).2.2]
  refine Eq.trans ?_
    (Memref.read_access_unit_zero (Elt Ideal) main_v15 hz (fun a => by rw [congrFun hz a]; simp) (grandTotal V c)).symm
  funext j
  show ∑ s ∈ Finset.range (t.val + 1), blockShare V c s = ∑ s ∈ Finset.range 32, blockShare V c s
  rw [h31]

/-- The cell is in the output window's block at every point: the block is the whole [1,1] array. -/
theorem cell_covered (t : Fin cfg1.N) (i : S1x1.Idx) : i ∈ ((cfg1.win 4).blk t).view.set := by
  show i ∈ ((View.whole main_v15).slice (win1_4.rect t)).set
  rw [View.set_slice_whole, Rect.mem_set_unit]
  intro a
  match a with
  | ⟨0, _⟩ =>
    show win1_4.index t 0 * 1 ≤ (i 0 : ℕ) ∧ (i 0 : ℕ) < win1_4.index t 0 * 1 + 1
    rw [(index_fixed t).2.1]; have h0 : (i 0 : ℕ) < 1 := (i 0).isLt; omega
  | ⟨1, _⟩ =>
    show win1_4.index t 1 * 1 ≤ (i 1 : ℕ) ∧ (i 1 : ℕ) < win1_4.index t 1 * 1 + 1
    rw [(index_fixed t).2.2]; have h1 : (i 1 : ℕ) < 1 := (i 1).isLt; omega

/-- So the array the cell is written back to ends holding the shares of all 32 row blocks: the last point writes it
    back, and its block covers the array. -/
theorem array_ends (c : Dev nD) : (dat1 (F := Ideal) V c).arrAt 4 cfg1.N = grandTotal V c :=
  (dat1 (F := Ideal) V c).arrAt_eq_of_cover 4 (grandTotal V c) (written_back V c) fun i =>
    ⟨⟨31, by rw [show cfg1.N = 32 from N_1]; decide⟩, (flush1_4 _).mpr rfl, cell_covered _ i⟩

/-- The 32 blocks' shares are the weighted loss summed over all 131072 rows: the rows, cut into 32 consecutive blocks
    of 4096, are summed block by block. -/
theorem grandTotal_eq (c : Dev nD) :
    grandTotal V c = tot2 (V c main_v0) (V c main_v1) (V c main_v2) (V c main_v14) := by
  funext j
  show ∑ s ∈ Finset.range 32, blockShare V c s
    = ∑ p : Fin 131072, ∑ q : Fin 128, share (V c main_v0) (V c main_v1) (V c main_v2) (V c main_v14) p q
  rw [sum_rows fun p => ∑ q : Fin 128, share (V c main_v0) (V c main_v1) (V c main_v2) (V c main_v14) p q]
  refine (Fin.sum_univ_eq_sum_range (blockShare V c) 32).symm.trans (Finset.sum_congr rfl fun t _ => ?_)
  unfold blockShare
  rw [dif_pos t.isLt]

end Total

/-- Whatever the buffers hold when the second pass is entered (`V`), the array its output window is written back to
    ends holding the weighted total of the three input arrays and the weight row as entered. -/
theorem final (V : (c : Dev nD) → (b : Ref sig .tc) → Buf (Elt Ideal) ((c : Thread nD τ).loc b)) (c : Dev nD) :
    (dat1 (F := Ideal) V c).arrAt 4 cfg1.N = tot2 (V c main_v0) (V c main_v1) (V c main_v2) (V c main_v14) :=
  (array_ends V c).trans (grandTotal_eq V c)

end Cert.KernelIdeal.Region1

end
-- ==== Proof.LibScatterMat.lean ====
/-
  A matrix scatter-add read at an index. A `stablehlo.scatter` with an `add` body whose operand is a matrix `[M, N]`,
  whose scatter indices are `E` pairs `[E, 2]` (row word, column word) and whose updates are a vector of length `E`
  adds update `e` onto the operand entry that pair `e` names, both words read signed: entry `(r, c)` of the result is
  the operand's plus the sum of the updates whose pair reads `(r, c)`. A pair with a word outside its axis names no
  entry and its update is dropped.
-/
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.LibScatterMat

open Idealize.ShloMosaic Idealize.ShloMosaic.ValueIdx

/-- The dimension numbers of a matrix scatter by index pairs: the updates have no window axis, both operand axes are
    inserted, component 0 of a pair names axis 0 and component 1 names axis 1, the pairs lie along axis 1 of the indices. -/
abbrev matScatterDims (M N E : Nat)
    (wf : ScatterDims.WF (⟨2, ![M, N]⟩ : Shape) (⟨2, ![E, 2]⟩ : Shape) (⟨1, ![E]⟩ : Shape) [] [0, 1] [0, 1] 1) :
    ScatterDims (⟨2, ![M, N]⟩ : Shape) (⟨2, ![E, 2]⟩ : Shape) (⟨1, ![E]⟩ : Shape) where
  updateWindowDims := []
  insertedWindowDims := [0, 1]
  scatterDimsToOperandDims := [0, 1]
  indexVectorDim := 1
  wf := wf

variable {M N E : Nat}
  (wf : ScatterDims.WF (⟨2, ![M, N]⟩ : Shape) (⟨2, ![E, 2]⟩ : Shape) (⟨1, ![E]⟩ : Shape) [] [0, 1] [0, 1] 1)

/-- Update `e` reads component `c` of its start index at row `e`, column `c` of the index array. -/
private theorem siIdx_eq (e : Fin E) (c : Fin (matScatterDims M N E wf).scatterDimsToOperandDims.length) :
    (matScatterDims M N E wf).siIdx (ix1 e) c = ix2 e (⟨c.val, c.isLt⟩ : Fin 2) := by
  funext b
  refine Fin.ext ?_
  match b with
  | ⟨0, _⟩ => rfl
  | ⟨1, _⟩ => rfl

/-- The window on the operand's row axis starts at the pair's first word, read signed. -/
private theorem start0_eq {w : Nat} (idx : IVec (⟨2, ![E, 2]⟩ : Shape) w) (e : Fin E) :
    (matScatterDims M N E wf).start (ix1 e) idx 0 = (idx (ix2 e (0 : Fin 2))).toInt := by
  unfold ScatterDims.start
  rw [dif_pos (show (0 : Fin 2) ∈ (matScatterDims M N E wf).scatterDimsToOperandDims from List.mem_cons_self), siIdx_eq]
  rfl

/-- The window on the operand's column axis starts at the pair's second word, read signed. -/
private theorem start1_eq {w : Nat} (idx : IVec (⟨2, ![E, 2]⟩ : Shape) w) (e : Fin E) :
    (matScatterDims M N E wf).start (ix1 e) idx 1 = (idx (ix2 e (1 : Fin 2))).toInt := by
  unfold ScatterDims.start
  rw [dif_pos (show (1 : Fin 2) ∈ (matScatterDims M N E wf).scatterDimsToOperandDims from List.mem_cons_of_mem _ List.mem_cons_self), siIdx_eq]
  rfl

/-- Both operand axes are inserted: the window coordinate is 0 on each. -/
private theorem window_eq (j : (⟨1, ![E]⟩ : Shape).Idx) (a : Fin 2) :
    (matScatterDims M N E wf).window j a = 0 := by
  unfold ScatterDims.window
  rw [dif_neg]
  show ¬ a ∈ (List.finRange 2).filter (· ∉ [(0 : Fin 2), 1])
  revert a; decide

/-- Update `e` lands on operand entry `(r, c)` exactly when its pair reads `(r, c)`. -/
theorem resultIdx?_eq_some_iff {w : Nat} (idx : IVec (⟨2, ![E, 2]⟩ : Shape) w) (e : Fin E) (r : Fin M) (c : Fin N) :
    (matScatterDims M N E wf).resultIdx? (ix1 e) idx = some (ix2 r c)
      ↔ (idx (ix2 e (0 : Fin 2))).toInt = (r.val : ℤ) ∧ (idx (ix2 e (1 : Fin 2))).toInt = (c.val : ℤ) := by
  have hs0 := start0_eq wf idx e
  have hs1 := start1_eq wf idx e
  have hw0 := window_eq wf (ix1 e) 0
  have hw1 := window_eq wf (ix1 e) 1
  have hr := r.isLt
  have hc := c.isLt
  constructor
  · intro hres
    unfold ScatterDims.resultIdx? at hres
    split_ifs at hres with h
    rw [Option.some.injEq] at hres
    have e0 : ((matScatterDims M N E wf).start (ix1 e) idx 0 + (matScatterDims M N E wf).window (ix1 e) 0).toNat = r.val :=
      congrArg Fin.val (congrFun hres 0)
    have e1 : ((matScatterDims M N E wf).start (ix1 e) idx 1 + (matScatterDims M N E wf).window (ix1 e) 1).toNat = c.val :=
      congrArg Fin.val (congrFun hres 1)
    have h0 := (h 0).1
    have h1 := (h 1).1
    rw [hs0, hw0] at e0 h0
    rw [hs1, hw1] at e1 h1
    omega
  · rintro ⟨hi0, hi1⟩
    unfold ScatterDims.resultIdx?
    have h : ∀ a, 0 ≤ (matScatterDims M N E wf).start (ix1 e) idx a + (matScatterDims M N E wf).window (ix1 e) a
        ∧ (matScatterDims M N E wf).start (ix1 e) idx a + (matScatterDims M N E wf).window (ix1 e) a
          < (⟨2, ![M, N]⟩ : Shape).size a := by
      refine Fin.forall_fin_two.2 ⟨?_, ?_⟩
      · rw [hs0, hw0]
        show 0 ≤ _ ∧ _ < (M : ℤ)
        omega
      · rw [hs1, hw1]
        show 0 ≤ _ ∧ _ < (N : ℤ)
        omega
    rw [dif_pos h, Option.some.injEq]
    funext a
    refine Fin.ext ?_
    revert a
    refine Fin.forall_fin_two.2 ⟨?_, ?_⟩
    · show ((matScatterDims M N E wf).start (ix1 e) idx 0 + (matScatterDims M N E wf).window (ix1 e) 0).toNat = r.val
      rw [hs0, hw0]; omega
    · show ((matScatterDims M N E wf).start (ix1 e) idx 1 + (matScatterDims M N E wf).window (ix1 e) 1).toNat = c.val
      rw [hs1, hw1]; omega

/-- THE MATRIX SCATTER-ADD AT `(r, c)`: the operand's entry plus the updates whose index pair reads `(r, c)`. -/
theorem matScatterAdd_apply {w : Nat}
    (x : (⟨2, ![M, N]⟩ : Shape).Idx → EReal) (idx : IVec (⟨2, ![E, 2]⟩ : Shape) w)
    (u : (⟨1, ![E]⟩ : Shape).Idx → EReal) (r : Fin M) (c : Fin N) :
    Ideal.hostScatterAdd (matScatterDims M N E wf) x idx u (ix2 r c)
      = x (ix2 r c) + ∑ e : Fin E,
          if (idx (ix2 e (0 : Fin 2))).toInt = (r.val : ℤ) ∧ (idx (ix2 e (1 : Fin 2))).toInt = (c.val : ℤ) then u (ix1 e) else 0 := by
  unfold Ideal.hostScatterAdd
  congr 1
  rw [Finset.sum_filter]
  refine Fintype.sum_equiv idxEquiv1 _ _ fun j => ?_
  obtain ⟨e, rfl⟩ : ∃ e, j = ix1 e := ⟨j 0, eq_ix1 j⟩
  exact if_congr (resultIdx?_eq_some_iff wf idx e r c) rfl rfl

end Cert.LibScatterMat

end
-- ==== Proof.LibScatterSet.lean ====
/-
  A matrix written at index pairs with the values a function takes at those pairs. A `stablehlo.scatter` whose body
  returns the update (a `.set`) is the left fold, over the updates in row-major order, of "write the update at the entry
  its index names". When every update that lands on an entry carries the value a fixed function `p` takes at that entry,
  the order of the writes does not matter: an entry that some update lands on holds `p` there, and every other entry
  holds the operand's value. Stated first for any such fold over a list, then for the scatter of any dimension numbers,
  then for a matrix scattered at `E` index pairs `[E, 2]`; last, the gather that reads a matrix at `E` index pairs
  (each word read signed and clamped into its axis), which is how such updates are made.
-/
import proofs.«122389_j51556787421840_1_alg».proof.Proof.LibScatterMat
import Idealize.ShloMosaic.PureOps.ShapeOps
import Idealize.ShloMosaic.PureOps.Contract
import Idealize.ShloMosaic.Lib.ValueIdx
import Idealize.ShloMosaic.Lib.ValueIdxRank1

noncomputable section

namespace Cert.LibScatterSet

open Idealize.ShloMosaic Idealize.ShloMosaic.ValueIdx Cert.LibScatterMat

/-! ## The fold -/

/-- A left fold of writes. Each step `n` either names an entry `tgt n` and writes `upd n` there, leaving the other entries,
    or names none and leaves everything. If every write that names an entry writes the value `p` takes there, then after
    the fold an entry some step named holds `p` there, and an entry no step named holds what it held before. -/
theorem foldl_set_own {κ ι α : Type} (tgt : κ → Option ι) (upd : κ → α) (p : ι → α)
    (step : (ι → α) → κ → (ι → α))
    (hsome : ∀ r n i0, tgt n = some i0 → step r n i0 = upd n ∧ ∀ i', i' ≠ i0 → step r n i' = r i')
    (hnone : ∀ r n, tgt n = none → step r n = r)
    (l : List κ) (hupd : ∀ n ∈ l, ∀ i, tgt n = some i → upd n = p i) (x : ι → α) (i : ι) :
    ((∃ n ∈ l, tgt n = some i) ∧ l.foldl step x i = p i) ∨ ((∀ n ∈ l, tgt n ≠ some i) ∧ l.foldl step x i = x i) := by
  induction l generalizing x with
  | nil => exact Or.inr ⟨fun n hn => absurd hn List.not_mem_nil, rfl⟩
  | cons n l ih =>
    rw [List.foldl_cons]
    have hupd' : ∀ m ∈ l, ∀ i, tgt m = some i → upd m = p i := fun m hm => hupd m (List.mem_cons_of_mem _ hm)
    rcases ih hupd' (step x n) with ⟨⟨m, hm, hmt⟩, hv⟩ | ⟨hno, hv⟩
    · exact Or.inl ⟨⟨m, List.mem_cons_of_mem _ hm, hmt⟩, hv⟩
    · by_cases hn : tgt n = some i
      · refine Or.inl ⟨⟨n, List.mem_cons_self, hn⟩, ?_⟩
        rw [hv, (hsome x n i hn).1]
        exact hupd n List.mem_cons_self i hn
      · refine Or.inr ⟨fun m hm => ?_, ?_⟩
        · rcases List.mem_cons.mp hm with rfl | hm'
          · exact hn
          · exact hno m hm'
        · rw [hv]
          cases h : tgt n with
          | none => rw [hnone x n h]
          | some i0 =>
            refine (hsome x n i0 h).2 i fun e => hn ?_
            rw [h, e]

/-! ## Any scatter whose body returns the update -/

/-- A scatter that SETS: if every update that lands on an entry carries the value `p` takes at that entry, then an entry
    some update lands on holds `p` there, and an entry no update lands on holds the operand's value. -/
theorem scatter_set_own {α : Type} {s si u : Shape} {w : Nat} (d : ScatterDims s si u) (x : s.Idx → α) (idx : IVec si w)
    (upd : u.Idx → α) (p : s.Idx → α) (hupd : ∀ j i, d.resultIdx? j idx = some i → upd j = p i) (i : s.Idx) :
    ((∃ j, d.resultIdx? j idx = some i) ∧ Host.scatter d (fun _ b => b) x idx upd i = p i)
      ∨ ((∀ j, d.resultIdx? j idx ≠ some i) ∧ Host.scatter d (fun _ b => b) x idx upd i = x i) := by
  have H := foldl_set_own (κ := Fin u.numel) (ι := s.Idx) (α := α)
    (fun n => d.resultIdx? (u.rowMajor.symm n) idx) (fun n => upd (u.rowMajor.symm n)) p
    (fun r n =>
      match d.resultIdx? (u.rowMajor.symm n) idx with
      | some i => fun i' => if i' = i then (fun (_ b : α) => b) (r i) (upd (u.rowMajor.symm n)) else r i'
      | none => r)
    (fun r n i0 h => by
      simp only [h]
      exact ⟨if_pos trivial, fun i' hi' => if_neg hi'⟩)
    (fun r n h => by simp only [h])
    (List.finRange u.numel) (fun n _ i h => hupd _ i h) x i
  rcases H with ⟨⟨n, -, hn⟩, hv⟩ | ⟨hno, hv⟩
  · exact Or.inl ⟨⟨_, hn⟩, hv⟩
  · refine Or.inr ⟨fun j => ?_, hv⟩
    have := hno (u.rowMajor j) (List.mem_finRange _)
    rwa [Equiv.symm_apply_apply] at this

/-! ## A matrix written at index pairs -/

section Mat

variable {M N E : Nat}
  (wf : ScatterDims.WF (⟨2, ![M, N]⟩ : Shape) (⟨2, ![E, 2]⟩ : Shape) (⟨1, ![E]⟩ : Shape) [] [0, 1] [0, 1] 1)

/-- THE MATRIX SCATTER-SET AT `(r, c)`, the updates being a function's own values: if update `e` carries `p (r, c)` whenever
    its pair reads `(r, c)` (both words read signed), then entry `(r, c)` of the result is `p (r, c)` when some pair
    reads `(r, c)`, and the operand's entry when none does. -/
theorem matScatterSet_apply {α : Type} {w : Nat} (x : (⟨2, ![M, N]⟩ : Shape).Idx → α) (idx : IVec (⟨2, ![E, 2]⟩ : Shape) w)
    (upd : (⟨1, ![E]⟩ : Shape).Idx → α) (p : (⟨2, ![M, N]⟩ : Shape).Idx → α)
    (hupd : ∀ (e : Fin E) (r : Fin M) (c : Fin N), (idx (ix2 e (0 : Fin 2))).toInt = (r.val : ℤ) →
      (idx (ix2 e (1 : Fin 2))).toInt = (c.val : ℤ) → upd (ix1 e) = p (ix2 r c))
    (r : Fin M) (c : Fin N) :
    ((∃ e : Fin E, (idx (ix2 e (0 : Fin 2))).toInt = (r.val : ℤ) ∧ (idx (ix2 e (1 : Fin 2))).toInt = (c.val : ℤ))
        ∧ Host.scatter (matScatterDims M N E wf) (fun _ b => b) x idx upd (ix2 r c) = p (ix2 r c))
      ∨ ((∀ e : Fin E, ¬ ((idx (ix2 e (0 : Fin 2))).toInt = (r.val : ℤ) ∧ (idx (ix2 e (1 : Fin 2))).toInt = (c.val : ℤ)))
        ∧ Host.scatter (matScatterDims M N E wf) (fun _ b => b) x idx upd (ix2 r c) = x (ix2 r c)) := by
  have hU : ∀ j i, (matScatterDims M N E wf).resultIdx? j idx = some i → upd j = p i := by
    intro j i h
    rw [eq_ix1 j, eq_ix2 i] at h
    obtain ⟨h0, h1⟩ := (resultIdx?_eq_some_iff wf idx (j 0) (i 0) (i 1)).mp h
    rw [eq_ix1 j, eq_ix2 i]
    exact hupd (j 0) (i 0) (i 1) h0 h1
  rcases scatter_set_own (matScatterDims M N E wf) x idx upd p hU (ix2 r c) with ⟨⟨j, hj⟩, hv⟩ | ⟨hno, hv⟩
  · refine Or.inl ⟨⟨j 0, ?_⟩, hv⟩
    rw [eq_ix1 j] at hj
    exact (resultIdx?_eq_some_iff wf idx (j 0) r c).mp hj
  · refine Or.inr ⟨fun e he => ?_, hv⟩
    exact hno (ix1 e) ((resultIdx?_eq_some_iff wf idx e r c).mpr he)

end Mat

/-! ## A matrix read at index pairs -/

section Gather

variable {α : Type}

/-- The dimension numbers of a matrix gather by index pairs: no offset axis, both operand axes collapsed, component 0 of a
    pair names axis 0 and component 1 names axis 1, the pairs lie along axis 1 of the indices, every slice one element. -/
abbrev pairGatherDims (M N E : Nat)
    (wf : GatherDims.WF (⟨2, ![M, N]⟩ : Shape) (⟨2, ![E, 2]⟩ : Shape) (⟨1, ![E]⟩ : Shape) [] [0, 1] [] [0, 1] [] 1 ![1, 1]) :
    GatherDims (⟨2, ![M, N]⟩ : Shape) (⟨2, ![E, 2]⟩ : Shape) (⟨1, ![E]⟩ : Shape) where
  offsetDims := []
  collapsedSliceDims := [0, 1]
  operandBatchingDims := []
  startIndicesBatchingDims := []
  startIndexMap := [0, 1]
  indexVectorDim := 1
  sliceSizes := ![1, 1]
  wf := wf

variable {M N E : Nat}
  (wf : GatherDims.WF (⟨2, ![M, N]⟩ : Shape) (⟨2, ![E, 2]⟩ : Shape) (⟨1, ![E]⟩ : Shape) [] [0, 1] [] [0, 1] [] 1 ![1, 1])

/-- THE MATRIX GATHER AT `e`: the operand at the pair `(idx[e, 0], idx[e, 1])`, each word read signed and clamped into its
    axis. -/
theorem pairGather_apply {w : Nat} (hM : 0 < M) (hN : 0 < N) (x : (⟨2, ![M, N]⟩ : Shape).Idx → α)
    (idx : IVec (⟨2, ![E, 2]⟩ : Shape) w) (e : Fin E) :
    Host.gather (pairGatherDims M N E wf) x idx (ix1 e)
      = x (ix2 (⟨min (idx (ix2 e (0 : Fin 2))).toInt.toNat (M - 1), by omega⟩ : Fin M)
          (⟨min (idx (ix2 e (1 : Fin 2))).toInt.toNat (N - 1), by omega⟩ : Fin N)) := by
  have hk : ∀ a : Fin 2, a ∉ (List.finRange 2).filter (· ∉ [(0 : Fin 2), 1] ++ []) := by decide
  unfold Host.gather
  congr 1
  funext a
  revert a
  refine Fin.forall_fin_two.2 ⟨?_, ?_⟩
  · refine Fin.ext ?_
    show (pairGatherDims M N E wf).start (ix1 e) idx 0 + (pairGatherDims M N E wf).batchCoord (ix1 e) 0
      + (pairGatherDims M N E wf).offCoord (ix1 e) 0 = min (idx (ix2 e (0 : Fin 2))).toInt.toNat (M - 1)
    rw [GatherDims.batchCoord_eq_zero _ _ _ List.not_mem_nil, GatherDims.offCoord_eq_zero _ _ _ (hk 0)]
    simp only [Nat.add_zero]
    unfold GatherDims.start
    rw [dif_pos (show (0 : Fin 2) ∈ (pairGatherDims M N E wf).startIndexMap from List.mem_cons_self)]
    have hsi : (pairGatherDims M N E wf).siIdx (ix1 e) ⟨List.idxOf (0 : Fin 2) (pairGatherDims M N E wf).startIndexMap,
        List.idxOf_lt_length_iff.2 List.mem_cons_self⟩ = ix2 e (0 : Fin 2) := by
      funext b; refine Fin.ext ?_
      match b with
      | ⟨0, _⟩ => rfl
      | ⟨1, _⟩ => rfl
    rw [hsi]
    rfl
  · refine Fin.ext ?_
    show (pairGatherDims M N E wf).start (ix1 e) idx 1 + (pairGatherDims M N E wf).batchCoord (ix1 e) 1
      + (pairGatherDims M N E wf).offCoord (ix1 e) 1 = min (idx (ix2 e (1 : Fin 2))).toInt.toNat (N - 1)
    rw [GatherDims.batchCoord_eq_zero _ _ _ List.not_mem_nil, GatherDims.offCoord_eq_zero _ _ _ (hk 1)]
    simp only [Nat.add_zero]
    unfold GatherDims.start
    rw [dif_pos (show (1 : Fin 2) ∈ (pairGatherDims M N E wf).startIndexMap from List.mem_cons_of_mem _ List.mem_cons_self)]
    have hsi : (pairGatherDims M N E wf).siIdx (ix1 e) ⟨List.idxOf (1 : Fin 2) (pairGatherDims M N E wf).startIndexMap,
        List.idxOf_lt_length_iff.2 (List.mem_cons_of_mem _ List.mem_cons_self)⟩ = ix2 e (1 : Fin 2) := by
      funext b; refine Fin.ext ?_
      match b with
      | ⟨0, _⟩ => rfl
      | ⟨1, _⟩ => rfl
    rw [hsi]
    rfl

end Gather

end Cert.LibScatterSet

end
-- ==== Proof.Stretches.lean ====
/-
  The host operations around the two passes, read as values.

  Before the first pass each flat argument is reshaped to 131072 × 128: row `p`, lane `q` is entry `128 p + q`.
  Neither pass nor any host operation between them writes those three reshaped arrays, so the second pass finds them as
  the first did. Between the passes the population row's first ten lanes are cut out, clamped below by one and raised
  to the power −3/4, and written into the first ten lanes of a zero row: the weight row. After the second pass its cell
  is read as a scalar and divided by 2²⁴.
-/
import proofs.«122389_j51556787421840_1_alg».proof.Proof.HistSpec
import proofs.«122389_j51556787421840_1_alg».proof.Proof.Gen.KernelIdeal.Frame
import Idealize.ShloMosaic.Lib.Pipeline.Value
import Idealize.ShloMosaic.Lib.StableHlo.Run
import Idealize.ShloMosaic.Lib.Tactic
import proofs.«122389_j51556787421840_1_alg».proof.Proof.LibScatterSet

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Stretches

open Cert.KernelIdeal Cert.KernelIdeal.Gen Cert.HistSpec

variable (m : (ℓ : Loc nD τ sig) → Buf (Elt Ideal) ℓ) (ρ : Dev nD → PrngReg)

/-! ## The record of the scatter between the passes

The updates are a vector of ten; its one axis is a window axis and goes to the operand's lane axis, the operand's row
axis is inserted, and both operand axes take their start from the two words of the single index vector. -/

/-- Every update reads component `cc` of its start index at position `cc` of the index vector. -/
private theorem siIdx_eq (k : Fin 10) (cc : Fin scatter_S1x128_S2_S10_0_0_01_0.scatterDimsToOperandDims.length) :
    scatter_S1x128_S2_S10_0_0_01_0.siIdx (ix1 k) cc = ix1 (⟨cc.val, cc.isLt⟩ : Fin 2) := by
  funext b
  refine Fin.ext ?_
  match b with
  | ⟨0, _⟩ => rfl

/-- The window starts, on the row axis, at the index vector's first word read signed. -/
private theorem start0_eq (idx : IVec S2 32) (k : Fin 10) :
    scatter_S1x128_S2_S10_0_0_01_0.start (ix1 k) idx 0 = (idx (ix1 (0 : Fin 2))).toInt := by
  unfold ScatterDims.start
  rw [dif_pos (show (0 : Fin 2) ∈ scatter_S1x128_S2_S10_0_0_01_0.scatterDimsToOperandDims from List.mem_cons_self), siIdx_eq]
  rfl

/-- The window starts, on the lane axis, at the index vector's second word read signed. -/
private theorem start1_eq (idx : IVec S2 32) (k : Fin 10) :
    scatter_S1x128_S2_S10_0_0_01_0.start (ix1 k) idx 1 = (idx (ix1 (1 : Fin 2))).toInt := by
  unfold ScatterDims.start
  rw [dif_pos (show (1 : Fin 2) ∈ scatter_S1x128_S2_S10_0_0_01_0.scatterDimsToOperandDims from
    List.mem_cons_of_mem _ List.mem_cons_self), siIdx_eq]
  rfl

/-- The row axis is inserted: the window coordinate there is 0. -/
private theorem window0_eq (k : Fin 10) : scatter_S1x128_S2_S10_0_0_01_0.window (ix1 k) 0 = 0 := by
  unfold ScatterDims.window
  rw [dif_neg (show ¬ (0 : Fin 2) ∈ scatter_S1x128_S2_S10_0_0_01_0.sKept from
    (by decide : ¬ (0 : Fin 2) ∈ (List.finRange 2).filter (· ∉ [(0 : Fin 2)])))]

/-- The lane axis takes the update's own position as its window coordinate. -/
private theorem window1_eq (k : Fin 10) : scatter_S1x128_S2_S10_0_0_01_0.window (ix1 k) 1 = k.val := by
  unfold ScatterDims.window
  rw [dif_pos (show (1 : Fin 2) ∈ scatter_S1x128_S2_S10_0_0_01_0.sKept from
    (by decide : (1 : Fin 2) ∈ (List.finRange 2).filter (· ∉ [(0 : Fin 2)])))]
  rfl

/-- With both words of the index vector reading zero, update `k` lands on lane `l` of the single row exactly when
    `l = k`. -/
private theorem resultIdx?_eq_some_iff (idx : IVec S2 32) (h0 : (idx (ix1 (0 : Fin 2))).toInt = 0)
    (h1 : (idx (ix1 (1 : Fin 2))).toInt = 0) (k : Fin 10) (r : Fin 1) (l : Fin 128) :
    scatter_S1x128_S2_S10_0_0_01_0.resultIdx? (ix1 k) idx = some (ix2 r l) ↔ l.val = k.val := by
  have hs0 := start0_eq idx k
  have hs1 := start1_eq idx k
  have hw0 := window0_eq k
  have hw1 := window1_eq k
  rw [h0] at hs0
  rw [h1] at hs1
  have hr : r.val = 0 := by omega
  have hk := k.isLt
  constructor
  · intro hres
    unfold ScatterDims.resultIdx? at hres
    split_ifs at hres with h
    rw [Option.some.injEq] at hres
    have e1 : (scatter_S1x128_S2_S10_0_0_01_0.start (ix1 k) idx 1 + scatter_S1x128_S2_S10_0_0_01_0.window (ix1 k) 1).toNat = l.val :=
      congrArg Fin.val (congrFun hres 1)
    rw [hs1, hw1] at e1
    omega
  · intro hl
    unfold ScatterDims.resultIdx?
    have h : ∀ a, 0 ≤ scatter_S1x128_S2_S10_0_0_01_0.start (ix1 k) idx a + scatter_S1x128_S2_S10_0_0_01_0.window (ix1 k) a
        ∧ scatter_S1x128_S2_S10_0_0_01_0.start (ix1 k) idx a + scatter_S1x128_S2_S10_0_0_01_0.window (ix1 k) a
          < S1x128.size a := by
      refine Fin.forall_fin_two.2 ⟨?_, ?_⟩
      · rw [hs0, hw0]
        show 0 ≤ _ ∧ _ < ((1 : ℕ) : ℤ)
        omega
      · rw [hs1, hw1]
        show 0 ≤ _ ∧ _ < ((128 : ℕ) : ℤ)
        omega
    rw [dif_pos h, Option.some.injEq]
    funext a
    refine Fin.ext ?_
    revert a
    refine Fin.forall_fin_two.2 ⟨?_, ?_⟩
    · show (scatter_S1x128_S2_S10_0_0_01_0.start (ix1 k) idx 0 + scatter_S1x128_S2_S10_0_0_01_0.window (ix1 k) 0).toNat = r.val
      rw [hs0, hw0]; omega
    · show (scatter_S1x128_S2_S10_0_0_01_0.start (ix1 k) idx 1 + scatter_S1x128_S2_S10_0_0_01_0.window (ix1 k) 1).toNat = l.val
      rw [hs1, hw1]; omega

/-- A row set at its first ten lanes. Ten updates written through this scatter's dimension numbers at an index vector whose two words
    read zero, each update `k` carrying the value `p` takes at lane `k`: the result is `p` on lanes 0 … 9 and the
    operand from lane 10 on. -/
private theorem scatter_row_apply (x : S1x128.Idx → EReal) (idx : IVec S2 32) (upd : S10.Idx → EReal)
    (p : S1x128.Idx → EReal) (h0 : (idx (ix1 (0 : Fin 2))).toInt = 0) (h1 : (idx (ix1 (1 : Fin 2))).toInt = 0)
    (hupd : ∀ k : Fin 10, upd (ix1 k) = p (ix2 (0 : Fin 1) (⟨k.val, by omega⟩ : Fin 128))) (r : Fin 1) (l : Fin 128) :
    Host.scatter scatter_S1x128_S2_S10_0_0_01_0 (fun _ b => b) x idx upd (ix2 r l)
      = if l.val < 10 then p (ix2 r l) else x (ix2 r l) := by
  have hU : ∀ j i, scatter_S1x128_S2_S10_0_0_01_0.resultIdx? j idx = some i → upd j = p i := by
    intro j i h
    obtain ⟨k, rfl⟩ : ∃ k : Fin 10, j = ix1 k := ⟨j 0, eq_ix1 j⟩
    obtain ⟨r', l', rfl⟩ : ∃ (r' : Fin 1) (l' : Fin 128), i = ix2 r' l' := ⟨i 0, i 1, eq_ix2 i⟩
    have hl := (resultIdx?_eq_some_iff idx h0 h1 k r' l').mp h
    rw [hupd k]
    have hr' : r' = 0 := Fin.ext (by omega)
    have hl' : l' = ⟨k.val, by omega⟩ := Fin.ext hl
    rw [hr', hl']
  rcases Cert.LibScatterSet.scatter_set_own scatter_S1x128_S2_S10_0_0_01_0 x idx upd p hU (ix2 r l) with ⟨⟨j, hj⟩, hv⟩ | ⟨hno, hv⟩
  · obtain ⟨k, rfl⟩ : ∃ k : Fin 10, j = ix1 k := ⟨j 0, eq_ix1 j⟩
    have hl := (resultIdx?_eq_some_iff idx h0 h1 k r l).mp hj
    have hk := k.isLt
    rw [hv, if_pos (by omega)]
  · by_cases hl : l.val < 10
    · exact absurd ((resultIdx?_eq_some_iff idx h0 h1 ⟨l.val, hl⟩ r l).mpr rfl) (hno (ix1 ⟨l.val, hl⟩))
    · rw [hv, if_neg hl]

/-- An index vector made of two one-word pieces reads the first piece's word at position 0 and the second piece's at
    position 1. -/
private theorem pair_words (a b : IVec S1 32) :
    concatenate S2 0 [⟨S1, a⟩, ⟨S1, b⟩] concatenates_S1_S1_S2_d0 (ix1 (0 : Fin 2)) = a (ix1 (0 : Fin 1))
      ∧ concatenate S2 0 [⟨S1, a⟩, ⟨S1, b⟩] concatenates_S1_S1_S2_d0 (ix1 (1 : Fin 2)) = b (ix1 (0 : Fin 1)) := by
  constructor
  · exact concatenate_pair_apply_left 0 a b concatenates_S1_S1_S2_d0 (ix1 (0 : Fin 2)) rfl (ix1 (0 : Fin 1))
      (fun d => match d with | ⟨0, _⟩ => rfl)
  · exact concatenate_pair_apply_right 0 a b concatenates_S1_S1_S2_d0 (ix1 (1 : Fin 2)) rfl rfl (ix1 (0 : Fin 1))
      (fun d => match d with | ⟨0, _⟩ => fun hd => absurd rfl hd) rfl

/-- The first pass finds each reshaped argument as the row-major reading of the flat one. -/
theorem V1_v0_apply (c : Dev nD) (p : Fin 131072) (q : Fin 128) :
    (V1 (F := Ideal) m ρ c main_v0 : Rows.Idx → EReal) (ix2 p q) = m ((c : Thread nD τ).loc main_arg0) (flatIx p q) := by
  have e : (V1 (F := Ideal) m ρ c main_v0 : Rows.Idx → EReal)
      = shapeCast S131072x128 (m ((c : Thread nD τ).loc main_arg0) : Flat.Idx → EReal) shapeCasts_S16777216_S131072x128 := by
    show StableHlo.after hostOps0 _ (Proc.devRef .tc main_v0) = _
    after_results
    rfl
  rw [e]
  refine shapeCast_apply _ _ (ix2 p q) (flatIx p q) ?_
  rw [Shape.rowMajor_val_two, Shape.rowMajor_val_one]
  rfl
theorem V1_v1_apply (c : Dev nD) (p : Fin 131072) (q : Fin 128) :
    (V1 (F := Ideal) m ρ c main_v1 : Rows.Idx → EReal) (ix2 p q) = m ((c : Thread nD τ).loc main_arg1) (flatIx p q) := by
  have e : (V1 (F := Ideal) m ρ c main_v1 : Rows.Idx → EReal)
      = shapeCast S131072x128 (m ((c : Thread nD τ).loc main_arg1) : Flat.Idx → EReal) shapeCasts_S16777216_S131072x128 := by
    show StableHlo.after hostOps0 _ (Proc.devRef .tc main_v1) = _
    after_results
    rfl
  rw [e]
  refine shapeCast_apply _ _ (ix2 p q) (flatIx p q) ?_
  rw [Shape.rowMajor_val_two, Shape.rowMajor_val_one]
  rfl
theorem V1_v2_apply (c : Dev nD) (p : Fin 131072) (q : Fin 128) :
    (V1 (F := Ideal) m ρ c main_v2 : Rows.Idx → EReal) (ix2 p q) = m ((c : Thread nD τ).loc main_arg2) (flatIx p q) := by
  have e : (V1 (F := Ideal) m ρ c main_v2 : Rows.Idx → EReal)
      = shapeCast S131072x128 (m ((c : Thread nD τ).loc main_arg2) : Flat.Idx → EReal) shapeCasts_S16777216_S131072x128 := by
    show StableHlo.after hostOps0 _ (Proc.devRef .tc main_v2) = _
    after_results
    rfl
  rw [e]
  refine shapeCast_apply _ _ (ix2 p q) (flatIx p q) ?_
  rw [Shape.rowMajor_val_two, Shape.rowMajor_val_one]
  rfl

/-- The second pass finds the three reshaped arguments as the first pass did. -/
theorem V3_v0 (c : Dev nD) : V3 (F := Ideal) m ρ c main_v0 = V1 (F := Ideal) m ρ c main_v0 := by
  have e : V3 (F := Ideal) m ρ c main_v0 = W2 (F := Ideal) m ρ c (Proc.devRef .tc main_v0) := by
    show StableHlo.after hostOps1 _ (Proc.devRef .tc main_v0) = _
    after_results
  rw [e]
  refine (W2_arr (F := Ideal) m ρ c 0).trans ?_
  rw [(dat0 (V1 (F := Ideal) m ρ) c).arrAt_in 0 rfl, A_eq0]
theorem V3_v1 (c : Dev nD) : V3 (F := Ideal) m ρ c main_v1 = V1 (F := Ideal) m ρ c main_v1 := by
  have e : V3 (F := Ideal) m ρ c main_v1 = W2 (F := Ideal) m ρ c (Proc.devRef .tc main_v1) := by
    show StableHlo.after hostOps1 _ (Proc.devRef .tc main_v1) = _
    after_results
  rw [e]
  refine (W2_arr (F := Ideal) m ρ c 1).trans ?_
  rw [(dat0 (V1 (F := Ideal) m ρ) c).arrAt_in 1 rfl, A_eq0]
theorem V3_v2 (c : Dev nD) : V3 (F := Ideal) m ρ c main_v2 = V1 (F := Ideal) m ρ c main_v2 := by
  have e : V3 (F := Ideal) m ρ c main_v2 = W2 (F := Ideal) m ρ c (Proc.devRef .tc main_v2) := by
    show StableHlo.after hostOps1 _ (Proc.devRef .tc main_v2) = _
    after_results
  rw [e]
  refine (W2_arr (F := Ideal) m ρ c 2).trans ?_
  rw [(dat0 (V1 (F := Ideal) m ρ) c).arrAt_in 2 rfl, A_eq0]

/-- The second pass finds, as its weight row, the weights made from the row the first pass left. -/
theorem V3_v14 (c : Dev nD) : V3 (F := Ideal) m ρ c main_v14 = wpad (V2 (F := Ideal) m ρ c main_v3) := by
  show StableHlo.after hostOps1 _ (Proc.devRef .tc main_v14) = _
  after_results
  funext i
  obtain ⟨r, l, rfl⟩ : ∃ (r : Fin 1) (l : Fin 128), i = ix2 r l := ⟨i 0, i 1, eq_ix2 i⟩
  refine (scatter_row_apply _ _ _ (wpad (V2 (F := Ideal) m ρ c main_v3)) ?_ ?_ ?_ r l).trans ?_
  · exact (congrArg BitVec.toInt (pair_words _ _).1).trans rfl
  · exact (congrArg BitVec.toInt (pair_words _ _).2).trans rfl
  · intro k
    have hw : wpad (V2 (F := Ideal) m ρ c main_v3) (ix2 (0 : Fin 1) (⟨k.val, by omega⟩ : Fin 128))
        = Ideal.pow (max ((V2 (F := Ideal) m ρ c main_v3 : Lanes.Idx → EReal)
            (ix2 (0 : Fin 1) (⟨k.val, by omega⟩ : Fin 128))) one) negThreeQuarters := if_pos k.isLt
    rw [hw]
    refine congrArg (fun z => Ideal.pow (max z one) negThreeQuarters) ?_
    refine (shapeCast_apply _ shapeCasts_S1x10_S10 (ix1 k) (ix2 (0 : Fin 1) k) ?_).trans ?_
    · rw [Shape.rowMajor_val_two, Shape.rowMajor_val_one]
      show 0 * 10 + k.val = k.val
      omega
    · exact extractStridedSlice_apply _ _ _ (ix2 (0 : Fin 1) k) (ix2 (0 : Fin 1) (⟨k.val, by omega⟩ : Fin 128))
        fun a => match a with
          | ⟨0, _⟩ => rfl
          | ⟨1, _⟩ => (Nat.zero_add _).symm
  · by_cases hl : l.val < 10
    · rw [if_pos hl]
    · rw [if_neg hl]
      have hz : wpad (V2 (F := Ideal) m ρ c main_v3) (ix2 r l) = 0 := if_neg hl
      rw [hz]
      exact Ideal.ofBits_zero_f32

/-- The program's result: the second pass's cell divided by 2²⁴. -/
theorem W5_v17 (c : Dev nD) :
    W5 (F := Ideal) m ρ c (Proc.devRef .tc main_v17)
      = fun _ => Ideal.div ((V4 (F := Ideal) m ρ c main_v15 : Cell.Idx → EReal) (ix2 (0 : Fin 1) (0 : Fin 1))) count := by
  show StableHlo.after hostOps2 _ (Proc.devRef .tc main_v17) = _
  after_results
  funext i
  refine congrArg (fun z => Ideal.div z count) ?_
  refine shapeCast_apply _ shapeCasts_S1x1_S_ i (ix2 (0 : Fin 1) (0 : Fin 1)) ?_
  have h1 : (S1x1.rowMajor (ix2 (0 : Fin 1) (0 : Fin 1))).val < 1 := (S1x1.rowMajor _).isLt
  have h2 : (S_.rowMajor i).val < 1 := (S_.rowMajor i).isLt
  omega

end Cert.KernelIdeal.Stretches

end
-- ==== Proof.Bridge.lean ====
/-
  The kernel program's result as a value: the mean weighted loss of the specification.

  The result buffer ends at the second pass's cell divided by 2²⁴. That cell is the weighted total over the three
  reshaped arguments and the weight row the second pass is entered with; the weight row is made from the population row
  the first pass leaves, which is the population row of the same three reshaped arguments; and the reshaped arguments
  are the row-major readings of the flat ones. The specification's two readings agree, so the result is its mean.
-/
import proofs.«122389_j51556787421840_1_alg».proof.Proof.HistSpec
import proofs.«122389_j51556787421840_1_alg».proof.Proof.KernelRun
import proofs.«122389_j51556787421840_1_alg».proof.Proof.Region0
import proofs.«122389_j51556787421840_1_alg».proof.Proof.Region1
import proofs.«122389_j51556787421840_1_alg».proof.Proof.Stretches

set_option maxRecDepth 16384

noncomputable section

open Idealize.ShloMosaic Idealize.ShloMosaic.TcCoe Idealize.SL.Sem Idealize.ShloMosaic.ValueIdx

namespace Cert.KernelIdeal.Value

open Cert.KernelIdeal Cert.KernelIdeal.Gen Cert.HistSpec

variable (m : (ℓ : Loc nD τ sig) → Buf (Elt Ideal) ℓ) (ρ : Dev nD → PrngReg)

/-- The specification's mean of the three flat arguments as launched, as the contents of the scalar result buffer. -/
abbrev spec (c : Dev nD) : Buf (Elt Ideal) ((c : Thread nD τ).loc main_v17) :=
  fun _ => result (m ((c : Thread nD τ).loc main_arg0)) (m ((c : Thread nD τ).loc main_arg1)) (m ((c : Thread nD τ).loc main_arg2))

/-- What the last host stretch leaves in the result buffer is the specification's mean. -/
theorem result_eq (c : Dev nD) : W5 (F := Ideal) m ρ c (Proc.devRef .tc main_v17) = spec m c := by
  have e4 : V4 (F := Ideal) m ρ c main_v15
      = tot2 (V3 (F := Ideal) m ρ c main_v0) (V3 (F := Ideal) m ρ c main_v1) (V3 (F := Ideal) m ρ c main_v2) (V3 (F := Ideal) m ρ c main_v14) :=
    (hF1 (F := Ideal) m ρ c 4).symm.trans (Region1.final (V3 (F := Ideal) m ρ) c)
  have e2 : V2 (F := Ideal) m ρ c main_v3
      = hist2 (V1 (F := Ideal) m ρ c main_v0) (V1 (F := Ideal) m ρ c main_v1) (V1 (F := Ideal) m ρ c main_v2) :=
    (hF0 (F := Ideal) m ρ c 3).symm.trans (Region0.final (V1 (F := Ideal) m ρ) c)
  rw [Stretches.W5_v17, e4, Stretches.V3_v0, Stretches.V3_v1, Stretches.V3_v2, Stretches.V3_v14, e2]
  funext _
  exact result_of_rows _ _ _ _ _ _ (Stretches.V1_v0_apply m ρ c) (Stretches.V1_v1_apply m ρ c) (Stretches.V1_v2_apply m ρ c)

/-- The run, read: the result buffer at the specification's mean, the arguments unchanged. -/
theorem run : θ_run defs (onTc (τ := τ) (main (F := Ideal))) ⟨m, fun _ => 0, ρ⟩ (fun r => ∀ c : Dev nD,
      r.2.mem ((c.tc : Thread nD τ).loc main_v17) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (Cert.KernelIdeal.Run.run (F := Ideal) m ρ)

end Cert.KernelIdeal.Value

end
-- ==== Proof.LibScatterVec.lean ====
/-
  A vector scatter-add read at an index. A `stablehlo.scatter` with an `add` body whose operand is a vector of
  length `M`, whose scatter indices are one column `[E, 1]` of positions and whose updates are a vector of length `E`
  (a segment sum of a vector) adds update `e` onto the operand position that index word `e` names, the word read
  signed: position `r` of the result is the operand's plus the sum of the updates whose word reads `r`. A word outside
  `[0, M)` names no position and its update is dropped.
-/
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.LibScatterVec

open Idealize.ShloMosaic Idealize.ShloMosaic.ValueIdx

/-- The dimension numbers of a vector scatter: the updates have no window axis, the operand's one axis is inserted
    and is the axis the single index component names, the index vector lies along axis 1 of the indices. -/
abbrev vecScatterDims (M E : Nat)
    (wf : ScatterDims.WF (⟨1, ![M]⟩ : Shape) (⟨2, ![E, 1]⟩ : Shape) (⟨1, ![E]⟩ : Shape) [] [0] [0] 1) :
    ScatterDims (⟨1, ![M]⟩ : Shape) (⟨2, ![E, 1]⟩ : Shape) (⟨1, ![E]⟩ : Shape) where
  updateWindowDims := []
  insertedWindowDims := [0]
  scatterDimsToOperandDims := [0]
  indexVectorDim := 1
  wf := wf

/-- Update `e` reads its start index at row `e` of the index column. -/
private theorem siIdx_eq {M E : Nat}
    (wf : ScatterDims.WF (⟨1, ![M]⟩ : Shape) (⟨2, ![E, 1]⟩ : Shape) (⟨1, ![E]⟩ : Shape) [] [0] [0] 1)
    (e : Fin E) (c : Fin (vecScatterDims M E wf).scatterDimsToOperandDims.length) :
    (vecScatterDims M E wf).siIdx (ix1 e) c = ix2 e (0 : Fin 1) := by
  have hc : c.val = 0 := by have := c.isLt; simpa using this
  funext b
  refine Fin.ext ?_
  match b with
  | ⟨0, _⟩ => rfl
  | ⟨1, _⟩ => exact hc

/-- The window on the operand's axis starts at update `e`'s index word, read signed. -/
private theorem start_eq {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) :
    (vecScatterDims M E wf).start (ix1 e) idx 0 = (idx (ix2 e (0 : Fin 1))).toInt := by
  unfold ScatterDims.start
  rw [dif_pos (show (0 : Fin 1) ∈ (vecScatterDims M E wf).scatterDimsToOperandDims from List.mem_singleton.mpr rfl),
    siIdx_eq]

/-- The operand's axis is inserted: the window coordinate there is 0. -/
private theorem window_eq {M E : Nat}
    (wf : ScatterDims.WF (⟨1, ![M]⟩ : Shape) (⟨2, ![E, 1]⟩ : Shape) (⟨1, ![E]⟩ : Shape) [] [0] [0] 1)
    (j : (⟨1, ![E]⟩ : Shape).Idx) :
    (vecScatterDims M E wf).window j 0 = 0 := by
  unfold ScatterDims.window
  rw [dif_neg (show ¬ (0 : Fin 1) ∈ (vecScatterDims M E wf).sKept from
    (by decide : ¬ (0 : Fin 1) ∈ (List.finRange 1).filter (· ∉ [(0 : Fin 1)])))]

/-- Update `e` lands on operand position `r` exactly when its index word reads `r`. -/
theorem resultIdx?_eq_some_iff {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) (r : Fin M) :
    (vecScatterDims M E wf).resultIdx? (ix1 e) idx = some (ix1 r)
      ↔ (idx (ix2 e (0 : Fin 1))).toInt = (r.val : ℤ) := by
  have hs := start_eq wf idx e
  have hw := window_eq wf (ix1 e)
  have hr := r.isLt
  constructor
  · intro hres
    unfold ScatterDims.resultIdx? at hres
    split_ifs at hres with h
    rw [Option.some.injEq] at hres
    have e0 : ((vecScatterDims M E wf).start (ix1 e) idx 0 + (vecScatterDims M E wf).window (ix1 e) 0).toNat = r.val :=
      congrArg Fin.val (congrFun hres 0)
    have h0 := (h 0).1
    rw [hs, hw] at e0 h0
    omega
  · intro hidx
    unfold ScatterDims.resultIdx?
    have h : ∀ a, 0 ≤ (vecScatterDims M E wf).start (ix1 e) idx a + (vecScatterDims M E wf).window (ix1 e) a
        ∧ (vecScatterDims M E wf).start (ix1 e) idx a + (vecScatterDims M E wf).window (ix1 e) a
          < (⟨1, ![M]⟩ : Shape).size a := by
      refine Fin.forall_fin_one.2 ?_
      rw [hs, hw]
      show 0 ≤ _ ∧ _ < (M : ℤ)
      omega
    rw [dif_pos h, Option.some.injEq]
    funext a
    refine Fin.ext ?_
    revert a
    refine Fin.forall_fin_one.2 ?_
    show ((vecScatterDims M E wf).start (ix1 e) idx 0 + (vecScatterDims M E wf).window (ix1 e) 0).toNat = r.val
    rw [hs, hw]; omega

/-- THE VECTOR SCATTER-ADD AT `r`: the operand's element plus the updates whose index word reads `r`. -/
theorem vecScatterAdd_apply {M E w : Nat}
    (wf : ScatterDims.WF (⟨1, ![M]⟩ : Shape) (⟨2, ![E, 1]⟩ : Shape) (⟨1, ![E]⟩ : Shape) [] [0] [0] 1)
    (x : (⟨1, ![M]⟩ : Shape).Idx → EReal) (idx : IVec (⟨2, ![E, 1]⟩ : Shape) w)
    (u : (⟨1, ![E]⟩ : Shape).Idx → EReal) (r : Fin M) :
    Ideal.hostScatterAdd (vecScatterDims M E wf) x idx u (ix1 r)
      = x (ix1 r) + ∑ e : Fin E, if (idx (ix2 e (0 : Fin 1))).toInt = (r.val : ℤ) then u (ix1 e) else 0 := by
  unfold Ideal.hostScatterAdd
  congr 1
  rw [Finset.sum_filter]
  refine Fintype.sum_equiv idxEquiv1 _ _ fun j => ?_
  obtain ⟨e, rfl⟩ : ∃ e, j = ix1 e := ⟨j 0, eq_ix1 j⟩
  exact if_congr (resultIdx?_eq_some_iff wf idx e r) rfl rfl

end Cert.LibScatterVec

end
-- ==== Proof.RefValue.lean ====
/-
  The reference read as a value: its result is the mean weighted loss of the specification.

  The reference computes, over the flat arrays, the loss `max 0 (−t·(a − b) + 0)`, the proxy as
  `1 / (1 + exp (−(−(a − b)·(2t − 1) + 0)))`, the bin word by floor, conversion and clamp, the ten populations by a
  scatter-add of ones through the column of bin words, the weights `(max cnt 1) ^ (−3/4)`, each entry's weight by a
  gather through the column of bin words (wrapped if negative, which they never are, and clamped into 0 … 9, which
  leaves them alone), and the mean by a sum from zero divided by 2²⁴. Adding zero changes nothing on the extended reals,
  and the spelled-out quotient is the logistic function.
-/
import proofs.«122389_j51556787421840_1_alg».proof.Proof.HistSpec
import proofs.«122389_j51556787421840_1_alg».proof.Proof.Gen.ReferenceIdeal.Run
import proofs.«122389_j51556787421840_1_alg».proof.Proof.Gen.ReferenceIdeal.Read
import proofs.«122389_j51556787421840_1_alg».proof.Proof.LibScatterVec
import proofs.«122389_j51556787421840_1_alg».proof.Proof.LibGather
import Idealize.ShloMosaic.Lib.KernelVsHost

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen Cert.ReferenceIdeal.Read Cert.HistSpec

/-! ## The two index columns and the two sets of dimension numbers -/

/-- Row `e` of the one-column reading of the bin words is entry `e` of the flat array of bin words. -/
private theorem idx_v28_row (e : Fin 16777216) : idx_main_v28 (ix2 e (0 : Fin 1)) = ix1 e := by
  funext a
  match a with
  | ⟨0, _⟩ => rfl

/-- The same for the one-column reading of the wrapped bin words. -/
private theorem idx_v39_row (e : Fin 16777216) : idx_main_v39 (ix2 e (0 : Fin 1)) = ix1 e := by
  funext a
  match a with
  | ⟨0, _⟩ => rfl

/-- The reference's scatter has the dimension numbers of a vector scatter: ten positions, 2²⁴ updates. -/
private theorem scatter_rec :
    scatter_S10_S16777216x1_S16777216_n_0_0_1
      = Cert.LibScatterVec.vecScatterDims 10 16777216 Gen.scatter_S10_S16777216x1_S16777216_n_0_0_1_wf := rfl

/-- The reference's gather has the dimension numbers of an element gather: ten elements, 2²⁴ row numbers. -/
private theorem gather_rec :
    gather_S10_S16777216x1_S16777216_n_0_n_n_0_1_1
      = Cert.LibGather.vecGatherDims 10 16777216 Gen.gather_S10_S16777216x1_S16777216_n_0_n_n_0_1_1_wf := rfl

/-- On the extended reals the host's scatter-add is the exact one, whatever the shapes. -/
private theorem scatterAdd_ideal {s si u : Shape} {φ : FTy} {w : Nat} (d : ScatterDims s si u) (x : FVec Ideal s φ)
    (idx : IVec si w) (upd : FVec Ideal u φ) :
    Host.scatterAdd d x idx upd = Ideal.hostScatterAdd d x idx upd := rfl

/-- A sum over a flat array's indices is the sum over its entries' numbers. -/
private theorem sum_entries {n : Nat} (f : (⟨1, ![n]⟩ : Shape).Idx → EReal) :
    ∑ e : Fin n, f (ix1 e) = ∑ i, f i :=
  Equiv.sum_comp (idxEquiv1 (n := n)).symm f

/-! ## The scatter-add and the gather, over any operands -/

/-- The reference's scatter-add at position `j`, whatever its three operands: the operand's element plus the updates
    whose index word reads `j`. -/
theorem scatterAdd_at (x : S10.Idx → EReal) (idx : IVec S16777216x1 32) (u : S16777216.Idx → EReal) (j : Fin 10) :
    Host.scatterAdd (F := Ideal) (φ := .f32) scatter_S10_S16777216x1_S16777216_n_0_0_1 x idx u (ix1 j)
      = x (ix1 j) + ∑ e : Fin 16777216, if (idx (ix2 e (0 : Fin 1))).toInt = (j.val : ℤ) then u (ix1 e) else 0 := by
  rw [scatterAdd_ideal, scatter_rec]
  exact Cert.LibScatterVec.vecScatterAdd_apply _ x idx u j

/-- The reference's gather at entry `e`, whatever its two operands: the operand at the position `k` that entry's index
    word names once read signed and clamped into 0 … 9. -/
theorem gather_at (x : S10.Idx → EReal) (idx : IVec S16777216x1 32) (e : Fin 16777216) (k : Fin 10)
    (hk : k.val = min (idx (ix2 e (0 : Fin 1))).toInt.toNat 9) :
    Host.gather gather_S10_S16777216x1_S16777216_n_0_n_n_0_1_1 x idx (ix1 e) = x (ix1 k) := by
  rw [gather_rec]
  refine (Cert.LibGather.vecGather_apply (by norm_num) _ x idx e).trans ?_
  exact congrArg (fun k' : Fin 10 => x (ix1 k')) (Fin.ext hk.symm)

/-! ## Per element: the loss and the bin word -/

/-- The loss stage at entry `i` is the ranking loss `max 0 (−t · (a − b))`: the added zero changes nothing. -/
theorem loss_eq (A B T : Flat.Idx → EReal) (i : Flat.Idx) :
    val_main_v6 (F := Ideal) A B T i = lossOf (A i) (B i) (T i) := by
  rw [val_main_v6_apply, val_main_v5_apply, val_main_cst_0_apply, val_main_v4_apply, val_main_v3_apply,
    val_main_cst_apply, val_main_v2_apply, val_main_v1_apply, val_main_v0_apply]
  simp only [Ideal.maximumf_def, Ideal.addf_def, Ideal.mulf_def, Ideal.subf_def, Ideal.hostNegf_def, Ideal.negf_def,
    Ideal.ofBits_def, Ideal.ofBits_zero_f32, add_zero]
  rfl

/-- The clamped word at entry `i` is the element's bin word: the exponent's added zero changes nothing, the
    spelled-out quotient `1 / (1 + exp (−x))` is the logistic function, and the clamp is `min 9 (max 0 ·)`. -/
theorem bin_eq (A B T : Flat.Idx → EReal) (i : Flat.Idx) :
    val_main_v25 (F := Ideal) A B T i = binOf (A i) (B i) (T i) := by
  rw [val_main_v25_apply, val_main_call0_v4_apply, val_main_call0_v3_apply, val_main_c_7_apply,
    val_main_call0_v2_apply, val_main_call0_v1_apply, val_main_call0_v0_apply, val_main_c_apply,
    val_main_v24_apply, val_main_v23_apply, val_main_v22_apply, val_main_v21_apply, val_main_cst_6_apply,
    val_main_v20_apply, val_main_v19_apply, val_main_cst_5_apply, val_main_v18_apply, val_main_v17_apply,
    val_main_cst_4_apply, val_main_v16_apply, val_main_v15_apply, val_main_v14_apply, val_main_v13_apply,
    val_main_cst_3_apply, val_main_v12_apply, val_main_v11_apply, val_main_v0_apply, val_main_v10_apply,
    val_main_v9_apply, val_main_cst_2_apply, val_main_v8_apply, val_main_v7_apply, val_main_cst_1_apply]
  unfold binOf proxy Ideal.logistic
  simp only [Ideal.hostDivf_def, Ideal.hostUnary_exp_def, Ideal.hostUnary_floor_def, Ideal.addf_def, Ideal.mulf_def,
    Ideal.subf_def, Ideal.hostNegf_def, Ideal.negf_def, Ideal.ofBits_def, Ideal.ofBits_zero_f32, Ideal.ofBits_one_f32,
    add_zero]
  rfl

/-! ## The ten populations and the ten weights -/

/-- Position `j` of the scatter-add is bin `j`'s population: from zero, a one for every entry whose word reads `j`. -/
theorem cnt_eq (A B T : Flat.Idx → EReal) (j : Fin 10) :
    val_main_v29 (F := Ideal) A B T (ix1 j) = cnt A B T j := by
  have hs : ∀ e : Fin 16777216,
      (if (val_main_v28 (F := Ideal) A B T (ix2 e (0 : Fin 1))).toInt = (j.val : ℤ)
        then val_main_v26 (F := Ideal) (ix1 e) else 0)
      = (fun i : Flat.Idx => if (binOf (A i) (B i) (T i)).toInt = (j.val : ℤ) then (1 : EReal) else 0) (ix1 e) :=
    fun e => by
      rw [val_main_v28_apply, idx_v28_row, bin_eq, val_main_v26_apply, val_main_cst_8_apply, Ideal.ofBits_def,
        Ideal.ofBits_one_f32]
  unfold val_main_v29
  generalize hx : val_main_v27 (F := Ideal) = x
  generalize hi : val_main_v28 (F := Ideal) A B T = idx
  generalize hu : val_main_v26 (F := Ideal) = u
  refine (scatterAdd_at x idx u j).trans ?_
  subst hx hi hu
  rw [val_main_v27_apply, val_main_cst_9_apply, Ideal.ofBits_def, Ideal.ofBits_zero_f32, zero_add]
  unfold cnt
  rw [Finset.sum_congr rfl (fun e _ => hs e)]
  exact sum_entries (n := 16777216)
    (fun i : Flat.Idx => if (binOf (A i) (B i) (T i)).toInt = (j.val : ℤ) then (1 : EReal) else 0)

/-- Position `j` of the power stage is bin `j`'s weight. -/
theorem wt_eq (A B T : Flat.Idx → EReal) (j : Fin 10) :
    val_main_v33 (F := Ideal) A B T (ix1 j) = wt A B T j := by
  rw [val_main_v33_apply, val_main_v32_apply, val_main_cst_11_apply, val_main_v31_apply, val_main_v30_apply,
    val_main_cst_10_apply, cnt_eq]
  unfold wt
  simp only [Ideal.hostPowf_def, Ideal.maximumf_def, Ideal.ofBits_def]

/-! ## Each entry's weight -/

/-- The wrap leaves the bin word alone: it reads non-negative. -/
theorem wrap_eq (A B T : Flat.Idx → EReal) (i : Flat.Idx) :
    val_main_v38 (F := Ideal) A B T i = binOf (A i) (B i) (T i) := by
  rw [val_main_v38_apply, val_main_v35_apply, val_main_v34_apply, val_main_c_12_apply, bin_eq]
  exact Cert.LibGather.select_slt_zero_of_nonneg _ (binOf_nonneg _ _ _) _ _

/-- The gather at entry `i` reads the weight of the entry's bin: the clamp into 0 … 9 is the position's own. -/
theorem weight_eq (A B T : Flat.Idx → EReal) (i : Flat.Idx) :
    val_main_v40 (F := Ideal) A B T i = wt A B T (slot (A i) (B i) (T i)) := by
  obtain ⟨e, rfl⟩ : ∃ e : Fin 16777216, i = ix1 e := ⟨i 0, eq_ix1 i⟩
  have hw : val_main_v39 (F := Ideal) A B T (ix2 e (0 : Fin 1))
      = binOf (A (ix1 e)) (B (ix1 e)) (T (ix1 e)) := by
    rw [val_main_v39_apply, idx_v39_row, wrap_eq]
  unfold val_main_v40
  generalize hx : val_main_v33 (F := Ideal) A B T = x
  generalize hi : val_main_v39 (F := Ideal) A B T = idx
  refine (gather_at x idx e (slot (A (ix1 e)) (B (ix1 e)) (T (ix1 e))) ?_).trans ?_
  · subst hi
    rw [hw]
    rfl
  · subst hx
    exact wt_eq A B T _

/-! ## The mean -/

/-- The reference's last stage, as a function of the three argument arrays, is the specification's mean. -/
theorem result_eq (A B T : Flat.Idx → EReal) :
    val_main_v43 (F := Ideal) A B T = fun _ => result A B T := by
  have h41 : val_main_v41 (F := Ideal) A B T
      = fun i : Flat.Idx => lossOf (A i) (B i) (T i) * wt A B T (slot (A i) (B i) (T i)) :=
    funext fun i => by rw [val_main_v41_apply, Ideal.mulf_def, loss_eq, weight_eq]
  funext i0
  rw [val_main_v43_apply, val_main_v42_apply, val_main_cst_14_apply, val_main_cst_15_apply, h41, Ideal.hostDivf_def,
    Ideal.ofBits_def, Ideal.ofBits_def, Ideal.ofBits_zero_f32, zero_add]
  rfl

end Cert.ReferenceIdeal.RefValue

end
-- ==== Proof.lean ====
/-
  Histogram-weighted margin ranking loss: a two-pass kernel against a one-pass reference, over the extended reals.

  Both programs compute, for three flat arrays of 2²⁴ entries, the mean of `max 0 (−t·(a − b))` weighted per entry by
  `(max cnt 1) ^ (−3/4)`, where `cnt` is the population of the entry's bin and the bin is `⌊10 σ(−(a − b)(2t − 1))⌋`
  clamped into 0 … 9 (Proof/HistSpec.lean).

  The kernel reshapes the arrays to 131072 × 128 and makes two passes over 32 blocks of 4096 rows: the first accumulates
  the ten populations into the lanes of one row, the host turns them into a row of weights, the second accumulates the
  weighted loss into one cell, and the host divides by 2²⁴ (Proof/Region0.lean, Proof/Stretches.lean,
  Proof/Region1.lean, Proof/Bridge.lean). The reference counts by a scatter-add of ones and weights by a gather
  (Proof/RefValue.lean). The two agree because a sum over the flat array is the sum over blocks, rows and lanes of its
  row-major reading, `0 − x = −x`, `x + 0 = x`, and the spelled-out `1 / (1 + e⁻ˣ)` is the logistic function; no
  finiteness of the inputs is used.

  The three programs run, and leave their arguments unchanged, by their generated frames (the reference's is its
  generated run with the result dropped); the idealization rewrote nothing.
-/
import proofs.«122389_j51556787421840_1_alg».proof.Defs
import proofs.«122389_j51556787421840_1_alg».proof.Proof.Gen.Kernel
import proofs.«122389_j51556787421840_1_alg».proof.Proof.Gen.Kernel.Skeleton
import proofs.«122389_j51556787421840_1_alg».proof.Proof.Gen.Kernel.Launch
import proofs.«122389_j51556787421840_1_alg».proof.Proof.Gen.Kernel.Points
import proofs.«122389_j51556787421840_1_alg».proof.Proof.Gen.Kernel.Frame
import proofs.«122389_j51556787421840_1_alg».proof.Proof.Gen.KernelIdeal
import proofs.«122389_j51556787421840_1_alg».proof.Proof.Gen.KernelIdeal.Skeleton
import proofs.«122389_j51556787421840_1_alg».proof.Proof.Gen.KernelIdeal.Launch
import proofs.«122389_j51556787421840_1_alg».proof.Proof.Gen.KernelIdeal.Points
import proofs.«122389_j51556787421840_1_alg».proof.Proof.Gen.KernelIdeal.Frame
import proofs.«122389_j51556787421840_1_alg».proof.Proof.Gen.ReferenceIdeal
import proofs.«122389_j51556787421840_1_alg».proof.Proof.Gen.Pre_finite_inputs
import proofs.«122389_j51556787421840_1_alg».proof.Proof.Gen.ReferenceIdeal.Run
import proofs.«122389_j51556787421840_1_alg».proof.Proof.Gen.ReferenceIdeal.Read
import proofs.«122389_j51556787421840_1_alg».proof.Proof.Bridge
import proofs.«122389_j51556787421840_1_alg».proof.Proof.RefValue
import Idealize.ShloMosaic.Adequacy
import Idealize.ShloMosaic.Init

noncomputable section

namespace Cert.Proof

open Idealize.ShloMosaic Idealize.SL.Sem

/-- The word-level kernel runs and keeps its arguments: its generated frame. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the specification's mean in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Value.spec m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_eq, (hagree c).1, (hagree c).2.1,
    (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
